-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x16 : Shape := ⟨2, ![64, 16]⟩
abbrev S16 : Shape := ⟨1, ![16]⟩
abbrev S16x16 : Shape := ⟨2, ![16, 16]⟩
abbrev S16x7 : Shape := ⟨2, ![16, 7]⟩
abbrev S7 : Shape := ⟨1, ![7]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part2 {F : FTy → Type} [FloatOps F] (main_arg8 : FVec F S16x7 .f32) (main_arg9 : FVec F S7 .f32) (main_v33 : IVec S_ 1) : IVec S_ 1 :=
  let main_v34 : FVec F S16x7 .f32 := Host.absf main_arg8
  let main_cst_12 : FVec F S_ .f32 := constant S_ .f32 0x7F800000#32
  let main_v35 : FVec F S16x7 .f32 := broadcastInDim S16x7 ![] bcast_S_S16x7 main_cst_12
  let main_v36 : IVec S16x7 1 := cmpf .olt main_v34 main_v35
  let main_c_13 : IVec S_ 1 := constantI S_ 1 1#1
  let main_v37 : IVec S_ 1 := (fun x v => Host.reduce IntOp.andi x v reducesTo_S16x7_S_d0_1 h_S_) main_v36 main_c_13
  let main_v38 : IVec S_ 1 := andi main_v33 main_v37
  let main_v39 : FVec F S7 .f32 := Host.absf main_arg9
  let main_cst_14 : FVec F S_ .f32 := constant S_ .f32 0x7F800000#32
  let main_v40 : FVec F S7 .f32 := broadcastInDim S7 ![] bcast_S_S7 main_cst_14
  let main_v41 : IVec S7 1 := cmpf .olt main_v39 main_v40
  let main_c_15 : IVec S_ 1 := constantI S_ 1 1#1
  let main_v42 : IVec S_ 1 := (fun x v => Host.reduce IntOp.andi x v reducesTo_S7_S_d0 h_S_) main_v41 main_c_15
  let main_v43 : IVec S_ 1 := andi main_v38 main_v42
  main_v43

def fn_part1 {F : FTy → Type} [FloatOps F] (main_arg5 : FVec F S16 .f32) (main_arg6 : FVec F S16x16 .f32) (main_arg7 : FVec F S16 .f32) (main_arg8 : FVec F S16x7 .f32) (main_arg9 : FVec F S7 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg6
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1250000 32) (main_arg2 : FVec F S64x16 .f32) (main_arg3 : FVec F S16 .f32) (main_arg4 : FVec F S16x16 .f32) (main_arg5 : FVec F S16 .f32) (main_arg6 : FVec F S16x16 .f32) (main_arg7 : FVec F S16 .f32) (main_arg8 : FVec F S16x7 .f32) (main_arg9 : FVec F S7 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x16 .f32 := Host.absf main_arg2
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1250000 : Shape := ⟨2, ![2, 1250000]⟩
abbrev S64x16 : Shape := ⟨2, ![64, 16]⟩
abbrev S16 : Shape := ⟨1, ![16]⟩
abbrev S16x16 : Shape := ⟨2, ![16, 16]⟩
abbrev S16x7 : Shape := ⟨2, ![16, 7]⟩
abbrev S7 : Shape := ⟨1, ![7]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x16 : Shape := ⟨2, ![1, 16]⟩
abbrev S100000x16 : Shape := ⟨2, ![100000, 16]⟩
abbrev S10000x64 : Shape := ⟨2, ![10000, 64]⟩
abbrev S10000x16 : Shape := ⟨2, ![10000, 16]⟩
abbrev S1250000x16 : Shape := ⟨2, ![1250000, 16]⟩
abbrev S1x7 : Shape := ⟨2, ![1, 7]⟩
abbrev S100000x7 : Shape := ⟨2, ![100000, 7]⟩
abbrev S10000x7 : Shape := ⟨2, ![10000, 7]⟩
abbrev S10000 : Shape := ⟨1, ![10000]⟩
abbrev S10000x1 : Shape := ⟨2, ![10000, 1]⟩

abbrev nBuf : Space → Nat
  | .hbm => 46
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x7, .f32⟩
  | .hbm, ⟨9, _⟩ => ⟨S7, .f32⟩
  | .hbm, ⟨10, _⟩ => ⟨S1x1250000, .i32⟩
  | .hbm, ⟨11, _⟩ => ⟨S1250000, .i32⟩
  | .hbm, ⟨12, _⟩ => ⟨S1x1250000, .i32⟩
  | .hbm, ⟨13, _⟩ => ⟨S1250000, .i32⟩
  | .hbm, ⟨14, _⟩ => ⟨S_, .i32⟩
  | .hbm, ⟨15, _⟩ => ⟨S1250000, .i32⟩
  | .hbm, ⟨16, _⟩ => ⟨S1250000, .i1⟩
  | .hbm, ⟨17, _⟩ => ⟨S_, .i32⟩
  | .hbm, ⟨18, _⟩ => ⟨S1250000, .i32⟩
  | .hbm, ⟨19, _⟩ => ⟨S1250000, .i32⟩
  | .hbm, ⟨20, _⟩ => ⟨S1250000, .i32⟩
  | .hbm, ⟨21, _⟩ => ⟨S1250000x1, .i32⟩
  | .hbm, ⟨22, _⟩ => ⟨S1250000x64, .f32⟩
  | .hbm, ⟨23, _⟩ => ⟨S_, .f32⟩
  | .hbm, ⟨24, _⟩ => ⟨S100000x64, .f32⟩
  | .hbm, ⟨25, _⟩ => ⟨S1250000x1, .i32⟩
  | .hbm, ⟨26, _⟩ => ⟨S100000x64, .f32⟩
  | .hbm, ⟨27, _⟩ => ⟨S1x16, .f32⟩
  | .hbm, ⟨28, _⟩ => ⟨S1x16, .f32⟩
  | .hbm, ⟨29, _⟩ => ⟨S100000x16, .f32⟩
  | .hbm, ⟨30, _⟩ => ⟨S_, .i32⟩
  | .hbm, ⟨31, _⟩ => ⟨S1250000, .i32⟩
  | .hbm, ⟨32, _⟩ => ⟨S1250000, .i1⟩
  | .hbm, ⟨33, _⟩ => ⟨S_, .i32⟩
  | .hbm, ⟨34, _⟩ => ⟨S1250000, .i32⟩
  | .hbm, ⟨35, _⟩ => ⟨S1250000, .i32⟩
  | .hbm, ⟨36, _⟩ => ⟨S1250000, .i32⟩
  | .hbm, ⟨37, _⟩ => ⟨S1250000x1, .i32⟩
  | .hbm, ⟨38, _⟩ => ⟨S1250000x16, .f32⟩
  | .hbm, ⟨39, _⟩ => ⟨S_, .f32⟩
  | .hbm, ⟨40, _⟩ => ⟨S100000x16, .f32⟩
  | .hbm, ⟨41, _⟩ => ⟨S1250000x1, .i32⟩
  | .hbm, ⟨42, _⟩ => ⟨S100000x16, .f32⟩
  | .hbm, ⟨43, _⟩ => ⟨S1x16, .f32⟩
  | .hbm, ⟨44, _⟩ => ⟨S1x7, .f32⟩
  | .hbm, ⟨45, _⟩ => ⟨S100000x7, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x16, .f32⟩
  | .local _ .vmem, ⟨5, _⟩ => ⟨S1x16, .f32⟩
  | .local _ .vmem, ⟨6, _⟩ => ⟨S16x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S10000x16, .f32⟩
  | .local _ .vmem, ⟨14, _⟩ => ⟨S16x16, .f32⟩
  | .local _ .vmem, ⟨15, _⟩ => ⟨S1x16, .f32⟩
  | .local _ .vmem, ⟨16, _⟩ => ⟨S16x7, .f32⟩
  | .local _ .vmem, ⟨17, _⟩ => ⟨S1x7, .f32⟩
  | .local _ .vmem, ⟨18, _⟩ => ⟨S10000x7, .f32⟩
  | .local _ .vmem, ⟨19, _⟩ => ⟨S10000x7, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x7 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x7 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x7 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  shapeCasts_S16_S1x16 : S16.ShapeCasts S1x16
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x16_S64x16_0_0 : ∀ a, (![0, 0] : Fin 2 → Nat) a + S64x16.size a ≤ S64x16.size a
  h_S64x16 : 0 < S64x16.numel
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  shapeCasts_S7_S1x7 : S7.ShapeCasts S1x7
  shapeCasts_S10000x16_S10000x16 : S10000x16.ShapeCasts S10000x16
  inb_S16x7_S16x7_0_0 : ∀ a, (![0, 0] : Fin 2 → Nat) a + S16x7.size a ≤ S16x7.size a
  h_S16x7 : 0 < S16x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S10000x7 : S1x7.Broadcasts S10000x7
  reduces_S10000x7_S10000 : S10000x7.Reduces [1] S10000
  shapeCasts_S10000_S10000x1 : S10000.ShapeCasts S10000x1
  broadcasts_S10000x1_S10000x7 : S10000x1.Broadcasts S10000x7
  inb_S10000x7_S10000x7_0_0 : ∀ a, (![0, 0] : Fin 2 → Nat) a + S10000x7.size a ≤ S10000x7.size a
  h_S10000x7 : 0 < S10000x7.numel
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S10000x64_S64x16_S10000x16_1_0_0_1_n_n_wf : DotDims.WF S10000x64 S64x16 S10000x16 [1] [0] [0] [1] [] []
  dot_S10000x16_S16x16_S10000x16_1_0_0_1_n_n_wf : DotDims.WF S10000x16 S16x16 S10000x16 [1] [0] [0] [1] [] []
  gather_S100000x16_S1250000x1_S1250000x16_1_0_n_n_0_1_116_wf : GatherDims.WF S100000x16 S1250000x1 S1250000x16 [1] [0] [] [0] [] 1 ![1, 16]
  scatter_S100000x16_S1250000x1_S1250000x16_1_0_0_1_wf : ScatterDims.WF S100000x16 S1250000x1 S1250000x16 [1] [0] [0] 1
  dot_S10000x16_S16x7_S10000x7_1_0_0_1_n_n_wf : DotDims.WF S10000x16 S16x7 S10000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .f32 = 32 ∨ (Rect.block (s := S64x16) S64x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S16x16.size a
  hwx0_4 : ∀ i : grid0.Coords, EltTy.bits .f32 = 32 ∨ (Rect.block (s := S16x16) S16x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x16.size a ≤ S100000x16.size a
  hwx0_6 : ∀ i : grid0.Coords, EltTy.bits .f32 = 32 ∨ (Rect.block (s := S100000x16) S10000x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x7.size a ≤ S16x7.size a
  hwx1_4 : ∀ i : grid1.Coords, EltTy.bits .f32 = 32 ∨ (Rect.block (s := S16x7) S16x7.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x7.size a ≤ S1x7.size a
  hwx1_5 : ∀ i : grid1.Coords, EltTy.bits .f32 = 32 ∨ (Rect.block (s := S1x7) S1x7.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x7.size a ≤ S100000x7.size a
  hwx1_6 : ∀ i : grid1.Coords, EltTy.bits .f32 = 32 ∨ (Rect.block (s := S100000x7) S10000x7.size (cc1_transform_6 i) (hinb1_6 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def gather_S100000x16_S1250000x1_S1250000x16_1_0_n_n_0_1_116 : GatherDims S100000x16 S1250000x1 S1250000x16 where
  offsetDims := [1]
  collapsedSliceDims := [0]
  operandBatchingDims := []
  startIndicesBatchingDims := []
  startIndexMap := [0]
  indexVectorDim := 1
  sliceSizes := ![1, 16]
  wf := gather_S100000x16_S1250000x1_S1250000x16_1_0_n_n_0_1_116_wf
def scatter_S100000x16_S1250000x1_S1250000x16_1_0_0_1 : ScatterDims S100000x16 S1250000x1 S1250000x16 where
  updateWindowDims := [1]
  insertedWindowDims := [0]
  scatterDimsToOperandDims := [0]
  indexVectorDim := 1
  wf := scatter_S100000x16_S1250000x1_S1250000x16_1_0_0_1_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S10000x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S16x7.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x7.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S10000x7.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x16 : Shape := ⟨2, ![64, 16]⟩
abbrev S16 : Shape := ⟨1, ![16]⟩
abbrev S16x16 : Shape := ⟨2, ![16, 16]⟩
abbrev S16x7 : Shape := ⟨2, ![16, 7]⟩
abbrev S7 : Shape := ⟨1, ![7]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000x16 : Shape := ⟨2, ![100000, 16]⟩
abbrev S1x16 : Shape := ⟨2, ![1, 16]⟩
abbrev S1250000x16 : Shape := ⟨2, ![1250000, 16]⟩
abbrev S100000x7 : Shape := ⟨2, ![100000, 7]⟩
abbrev S1x7 : Shape := ⟨2, ![1, 7]⟩
abbrev S100000 : Shape := ⟨1, ![100000]⟩
abbrev S100000x1 : Shape := ⟨2, ![100000, 1]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x7, .f32⟩
  | .hbm, ⟨9, _⟩ => ⟨S7, .f32⟩
  | .hbm, ⟨10, _⟩ => ⟨S1x1250000, .i32⟩
  | .hbm, ⟨11, _⟩ => ⟨S1250000, .i32⟩
  | .hbm, ⟨12, _⟩ => ⟨S1x1250000, .i32⟩
  | .hbm, ⟨13, _⟩ => ⟨S1250000, .i32⟩
  | .hbm, ⟨14, _⟩ => ⟨S_, .i32⟩
  | .hbm, ⟨15, _⟩ => ⟨S1250000, .i32⟩
  | .hbm, ⟨16, _⟩ => ⟨S1250000, .i1⟩
  | .hbm, ⟨17, _⟩ => ⟨S_, .i32⟩
  | .hbm, ⟨18, _⟩ => ⟨S1250000, .i32⟩
  | .hbm, ⟨19, _⟩ => ⟨S1250000, .i32⟩
  | .hbm, ⟨20, _⟩ => ⟨S1250000, .i32⟩
  | .hbm, ⟨21, _⟩ => ⟨S1250000x1, .i32⟩
  | .hbm, ⟨22, _⟩ => ⟨S1250000x64, .f32⟩
  | .hbm, ⟨23, _⟩ => ⟨S_, .f32⟩
  | .hbm, ⟨24, _⟩ => ⟨S100000x64, .f32⟩
  | .hbm, ⟨25, _⟩ => ⟨S1250000x1, .i32⟩
  | .hbm, ⟨26, _⟩ => ⟨S100000x64, .f32⟩
  | .hbm, ⟨27, _⟩ => ⟨S100000x64, .f32⟩
  | .hbm, ⟨28, _⟩ => ⟨S100000x16, .f32⟩
  | .hbm, ⟨29, _⟩ => ⟨S1x16, .f32⟩
  | .hbm, ⟨30, _⟩ => ⟨S100000x16, .f32⟩
  | .hbm, ⟨31, _⟩ => ⟨S100000x16, .f32⟩
  | .hbm, ⟨32, _⟩ => ⟨S_, .f32⟩
  | .hbm, ⟨33, _⟩ => ⟨S100000x16, .f32⟩
  | .hbm, ⟨34, _⟩ => ⟨S100000x16, .f32⟩
  | .hbm, ⟨35, _⟩ => ⟨S100000x16, .f32⟩
  | .hbm, ⟨36, _⟩ => ⟨S1x16, .f32⟩
  | .hbm, ⟨37, _⟩ => ⟨S100000x16, .f32⟩
  | .hbm, ⟨38, _⟩ => ⟨S100000x16, .f32⟩
  | .hbm, ⟨39, _⟩ => ⟨S_, .f32⟩
  | .hbm, ⟨40, _⟩ => ⟨S100000x16, .f32⟩
  | .hbm, ⟨41, _⟩ => ⟨S100000x16, .f32⟩
  | .hbm, ⟨42, _⟩ => ⟨S_, .f32⟩
  | .hbm, ⟨43, _⟩ => ⟨S100000x16, .f32⟩
  | .hbm, ⟨44, _⟩ => ⟨S100000x16, .f32⟩
  | .hbm, ⟨45, _⟩ => ⟨S_, .i32⟩
  | .hbm, ⟨46, _⟩ => ⟨S1250000, .i32⟩
  | .hbm, ⟨47, _⟩ => ⟨S1250000, .i1⟩
  | .hbm, ⟨48, _⟩ => ⟨S_, .i32⟩
  | .hbm, ⟨49, _⟩ => ⟨S1250000, .i32⟩
  | .hbm, ⟨50, _⟩ => ⟨S1250000, .i32⟩
  | .hbm, ⟨51, _⟩ => ⟨S1250000, .i32⟩
  | .hbm, ⟨52, _⟩ => ⟨S1250000x1, .i32⟩
  | .hbm, ⟨53, _⟩ => ⟨S1250000x16, .f32⟩
  | .hbm, ⟨54, _⟩ => ⟨S_, .f32⟩
  | .hbm, ⟨55, _⟩ => ⟨S100000x16, .f32⟩
  | .hbm, ⟨56, _⟩ => ⟨S1250000x1, .i32⟩
  | .hbm, ⟨57, _⟩ => ⟨S100000x16, .f32⟩
  | .hbm, ⟨58, _⟩ => ⟨S100000x16, .f32⟩
  | .hbm, ⟨59, _⟩ => ⟨S100000x16, .f32⟩
  | .hbm, ⟨60, _⟩ => ⟨S1x16, .f32⟩
  | .hbm, ⟨61, _⟩ => ⟨S100000x16, .f32⟩
  | .hbm, ⟨62, _⟩ => ⟨S100000x16, .f32⟩
  | .hbm, ⟨63, _⟩ => ⟨S_, .f32⟩
  | .hbm, ⟨64, _⟩ => ⟨S100000x16, .f32⟩
  | .hbm, ⟨65, _⟩ => ⟨S100000x16, .f32⟩
  | .hbm, ⟨66, _⟩ => ⟨S100000x7, .f32⟩
  | .hbm, ⟨67, _⟩ => ⟨S1x7, .f32⟩
  | .hbm, ⟨68, _⟩ => ⟨S100000x7, .f32⟩
  | .hbm, ⟨69, _⟩ => ⟨S100000x7, .f32⟩
  | .hbm, ⟨70, _⟩ => ⟨S_, .f32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x7, .f32⟩
  | .hbm, ⟨77, _⟩ => ⟨S100000x7, .f32⟩
  | .hbm, ⟨78, _⟩ => ⟨S100000x7, .f32⟩
  | .hbm, ⟨79, _⟩ => ⟨S_, .f32⟩
  | .hbm, ⟨80, _⟩ => ⟨S100000, .f32⟩
  | .hbm, ⟨81, _⟩ => ⟨S100000x1, .f32⟩
  | .hbm, ⟨82, _⟩ => ⟨S100000x1, .f32⟩
  | .hbm, ⟨83, _⟩ => ⟨S100000x7, .f32⟩
  | .hbm, ⟨84, _⟩ => ⟨S100000x7, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_call2_cst : Ref sig .tc := ⟨.hbm, 42, rfl⟩
abbrev main_call2_v0 : Ref sig .tc := ⟨.hbm, 43, rfl⟩
abbrev main_v25 : Ref sig .tc := ⟨.hbm, 44, rfl⟩
abbrev main_c_1 : Ref sig .tc := ⟨.hbm, 45, rfl⟩
abbrev main_v26 : Ref sig .tc := ⟨.hbm, 46, rfl⟩
abbrev main_v27 : Ref sig .tc := ⟨.hbm, 47, rfl⟩
abbrev main_c_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call3_cst : Ref sig .tc := ⟨.hbm, 63, rfl⟩
abbrev main_call3_v0 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call4_cst : Ref sig .tc := ⟨.hbm, 70, rfl⟩
abbrev main_call4_v0 : Ref sig .tc := ⟨.hbm, 71, rfl⟩
abbrev main_call4_cst_0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_v5 : Ref sig .tc := ⟨.hbm, 77, rfl⟩
abbrev main_call4_v6 : Ref sig .tc := ⟨.hbm, 78, rfl⟩
abbrev main_call4_cst_1 : Ref sig .tc := ⟨.hbm, 79, rfl⟩
abbrev main_call4_v7 : Ref sig .tc := ⟨.hbm, 80, rfl⟩
abbrev main_call4_v8 : Ref sig .tc := ⟨.hbm, 81, rfl⟩
abbrev main_call4_v9 : Ref sig .tc := ⟨.hbm, 82, rfl⟩
abbrev main_call4_v10 : Ref sig .tc := ⟨.hbm, 83, rfl⟩
abbrev main_v46 : Ref sig .tc := ⟨.hbm, 84, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x16_S100000x16_1_0_0_1_n_n_wf : DotDims.WF S100000x64 S64x16 S100000x16 [1] [0] [0] [1] [] []
  dot_S100000x16_S16x16_S100000x16_1_0_0_1_n_n_wf : DotDims.WF S100000x16 S16x16 S100000x16 [1] [0] [0] [1] [] []
  gather_S100000x16_S1250000x1_S1250000x16_1_0_n_n_0_1_116_wf : GatherDims.WF S100000x16 S1250000x1 S1250000x16 [1] [0] [] [0] [] 1 ![1, 16]
  scatter_S100000x16_S1250000x1_S1250000x16_1_0_0_1_wf : ScatterDims.WF S100000x16 S1250000x1 S1250000x16 [1] [0] [0] 1
  dot_S100000x16_S16x7_S100000x7_1_0_0_1_n_n_wf : DotDims.WF S100000x16 S16x7 S100000x7 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def gather_S100000x16_S1250000x1_S1250000x16_1_0_n_n_0_1_116 : GatherDims S100000x16 S1250000x1 S1250000x16 where
  offsetDims := [1]
  collapsedSliceDims := [0]
  operandBatchingDims := []
  startIndicesBatchingDims := []
  startIndexMap := [0]
  indexVectorDim := 1
  sliceSizes := ![1, 16]
  wf := gather_S100000x16_S1250000x1_S1250000x16_1_0_n_n_0_1_116_wf
def scatter_S100000x16_S1250000x1_S1250000x16_1_0_0_1 : ScatterDims S100000x16 S1250000x1 S1250000x16 where
  updateWindowDims := [1]
  insertedWindowDims := [0]
  scatterDimsToOperandDims := [0]
  indexVectorDim := 1
  wf := scatter_S100000x16_S1250000x1_S1250000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf

class Facts : Prop extends Facts₀ where

variable [Facts]
-- ==== Proof.Spec.lean ====
/-
  The mathematics both programs compute, row by row, on the extended reals.

  A GIN layer's node update is a function of ONE row: the node's features plus its aggregated neighbour features,
  pushed through a two-layer perceptron.  The first update ends in three rectifiers (the perceptron's two and the
  idempotent one kept after the layer); the second ends in a row-wise log-softmax: subtract the row's maximum, then
  subtract the logarithm of the sum of the exponentials of the shifted row.  Nothing here depends on how rows are
  grouped into blocks, which is why a blocked evaluation and a whole-array evaluation agree.
-/
import Idealize.ShloMosaic.Lib.ValueIdx
import Idealize.ShloMosaic.PureOps.Ideal.Laws

noncomputable section

namespace Cert.Spec

open Idealize.ShloMosaic Idealize.ShloMosaic.ValueIdx

/-- The f32 zero word, read as an extended real. -/
abbrev zero32 : EReal := Ideal.ofBits .f32 0x00000000#32
/-- The f32 word of minus infinity, read as an extended real. -/
abbrev ninf32 : EReal := Ideal.ofBits .f32 0xFF800000#32

/-- One affine layer at output coordinate `q`: `(∑ k, h k · W k q) + b q`. -/
def lin {K N : ℕ} (h : Fin K → EReal) (W : Fin K → Fin N → EReal) (b : Fin N → EReal) (q : Fin N) : EReal :=
  (∑ k : Fin K, h k * W k q) + b q

/-- The first node update on one row: `relu (relu (relu ((x + a) W1 + b1) W2 + b2))`, the hidden rectifier inside. -/
def mlp1 (x a : Fin 64 → EReal) (W1 : Fin 64 → Fin 16 → EReal) (b1 : Fin 16 → EReal)
    (W2 : Fin 16 → Fin 16 → EReal) (b2 : Fin 16 → EReal) (q : Fin 16) : EReal :=
  max (max (lin (fun j => max (lin (fun k => x k + a k) W1 b1 j) zero32) W2 b2 q) zero32) zero32

/-- The second update's logits on one row: `relu ((h + a) W3 + b3) W4 + b4`. -/
def logits (h a : Fin 16 → EReal) (W3 : Fin 16 → Fin 16 → EReal) (b3 : Fin 16 → EReal)
    (W4 : Fin 16 → Fin 7 → EReal) (b4 : Fin 7 → EReal) (q : Fin 7) : EReal :=
  lin (fun j => max (lin (fun k => h k + a k) W3 b3 j) zero32) W4 b4 q

/-- A row's maximum, folded from minus infinity. -/
def rowMax (z : Fin 7 → EReal) : EReal := (Finset.univ : Finset (Fin 7)).fold max ninf32 z

/-- Log-softmax of one row at coordinate `q`. -/
def lsm (z : Fin 7 → EReal) (q : Fin 7) : EReal :=
  (z q - rowMax z) - Ideal.log (∑ r : Fin 7, Ideal.exp (z r - rowMax z))

/-- The second node update on one row: the log-softmax of the logits. -/
def mlp2 (h a : Fin 16 → EReal) (W3 : Fin 16 → Fin 16 → EReal) (b3 : Fin 16 → EReal)
    (W4 : Fin 16 → Fin 7 → EReal) (b4 : Fin 7 → EReal) (q : Fin 7) : EReal :=
  lsm (logits h a W3 b3 W4 b4) q

/-- The row coordinate of a rank-2 index, at its literal extent. -/
abbrev rowOf {n0 n1 : ℕ} (i : (⟨2, ![n0, n1]⟩ : Shape).Idx) : Fin n0 := ⟨(i 0).val, idx2_lt0 i⟩
/-- The column coordinate of a rank-2 index, at its literal extent. -/
abbrev colOf {n0 n1 : ℕ} (i : (⟨2, ![n0, n1]⟩ : Shape).Idx) : Fin n1 := ⟨(i 1).val, idx2_lt1 i⟩

/-- The hidden features of every node: the first update applied to each row of the features and of their aggregate. -/
def hid (x a : (⟨2, ![100000, 64]⟩ : Shape).Idx → EReal) (W1 : Fin 64 → Fin 16 → EReal) (b1 : Fin 16 → EReal)
    (W2 : Fin 16 → Fin 16 → EReal) (b2 : Fin 16 → EReal) : (⟨2, ![100000, 16]⟩ : Shape).Idx → EReal :=
  fun i => mlp1 (fun k => x (ix2 (rowOf i) k)) (fun k => a (ix2 (rowOf i) k)) W1 b1 W2 b2 (colOf i)

/-- The class scores of every node: the second update applied to each row of the hidden features and of their aggregate. -/
def outp (h a : (⟨2, ![100000, 16]⟩ : Shape).Idx → EReal) (W3 : Fin 16 → Fin 16 → EReal) (b3 : Fin 16 → EReal)
    (W4 : Fin 16 → Fin 7 → EReal) (b4 : Fin 7 → EReal) : (⟨2, ![100000, 7]⟩ : Shape).Idx → EReal :=
  fun i => mlp2 (fun k => h (ix2 (rowOf i) k)) (fun k => a (ix2 (rowOf i) k)) W3 b3 W4 b4 (colOf i)

theorem hid_apply (x a : (⟨2, ![100000, 64]⟩ : Shape).Idx → EReal) (W1 : Fin 64 → Fin 16 → EReal) (b1 : Fin 16 → EReal)
    (W2 : Fin 16 → Fin 16 → EReal) (b2 : Fin 16 → EReal) (p : Fin 100000) (q : Fin 16) :
    hid x a W1 b1 W2 b2 (ix2 p q) = mlp1 (fun k => x (ix2 p k)) (fun k => a (ix2 p k)) W1 b1 W2 b2 q := rfl

theorem outp_apply (h a : (⟨2, ![100000, 16]⟩ : Shape).Idx → EReal) (W3 : Fin 16 → Fin 16 → EReal) (b3 : Fin 16 → EReal)
    (W4 : Fin 16 → Fin 7 → EReal) (b4 : Fin 7 → EReal) (p : Fin 100000) (q : Fin 7) :
    outp h a W3 b3 W4 b4 (ix2 p q) = mlp2 (fun k => h (ix2 p k)) (fun k => a (ix2 p k)) W3 b3 W4 b4 q := rfl

end Cert.Spec

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.KernelPayload.lean ====
/-
  The two kernel bodies' stored values, read at one index of the block: each is the row function of the
  corresponding rows of the loaded blocks.
-/
import proofs.«164027_j34832184770974_1_alg».proof.Proof.Gen.KernelIdeal.Skeleton
import proofs.«164027_j34832184770974_1_alg».proof.Proof.Spec
import proofs.«164027_j34832184770974_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-! ### The product of `[10000, 64]` rows by `[64, 16]` columns, read at an index -/

private theorem lhsA_0 (i : S10000x16.Idx) (c : dot_S10000x64_S64x16_S10000x16_1_0_0_1_n_n.contr.Idx) :
    (dot_S10000x64_S64x16_S10000x16_1_0_0_1_n_n.lhsIdx i c 0).val = (i 0).val := by
  unfold DotDims.lhsIdx
  rw [dif_neg (show ¬(0 : Fin S10000x64.rank) ∈ dot_S10000x64_S64x16_S10000x16_1_0_0_1_n_n.lhsBatch by decide), dif_pos (show (0 : Fin S10000x64.rank) ∈ dot_S10000x64_S64x16_S10000x16_1_0_0_1_n_n.lhsNonContracting by decide)]
  rfl
private theorem lhsA_1 (i : S10000x16.Idx) (c : dot_S10000x64_S64x16_S10000x16_1_0_0_1_n_n.contr.Idx) :
    (dot_S10000x64_S64x16_S10000x16_1_0_0_1_n_n.lhsIdx i c 1).val = (c ⟨0, by decide⟩).val :=
  dot_S10000x64_S64x16_S10000x16_1_0_0_1_n_n.lhsIdx_val_of_single rfl i c
private theorem rhsA_0 (i : S10000x16.Idx) (c : dot_S10000x64_S64x16_S10000x16_1_0_0_1_n_n.contr.Idx) :
    (dot_S10000x64_S64x16_S10000x16_1_0_0_1_n_n.rhsIdx i c 0).val = (c ⟨0, by decide⟩).val :=
  dot_S10000x64_S64x16_S10000x16_1_0_0_1_n_n.rhsIdx_val_of_single rfl i c
private theorem rhsA_1 (i : S10000x16.Idx) (c : dot_S10000x64_S64x16_S10000x16_1_0_0_1_n_n.contr.Idx) :
    (dot_S10000x64_S64x16_S10000x16_1_0_0_1_n_n.rhsIdx i c 1).val = (i 1).val := by
  unfold DotDims.rhsIdx
  rw [dif_neg (show ¬(1 : Fin S64x16.rank) ∈ dot_S10000x64_S64x16_S10000x16_1_0_0_1_n_n.rhsBatch by decide), dif_pos (show (1 : Fin S64x16.rank) ∈ dot_S10000x64_S64x16_S10000x16_1_0_0_1_n_n.rhsNonContracting by decide)]
  rfl

/-- Into the zero block, the product at `(p, q)` is the sum over the shared coordinate of row `p` times column `q`. -/
private theorem matmulA_apply {φ₁ φ₂ : FTy} (l : FVec Ideal S10000x64 φ₁) (r : FVec Ideal S64x16 φ₂) (p : Fin 10000) (q : Fin 16) :
    matmul dot_S10000x64_S64x16_S10000x16_1_0_0_1_n_n none l r (constant (F := Ideal) S10000x16 .f32 0x00000000#32) (ix2 p q)
      = ∑ k : Fin 64, l (ix2 p k) * r (ix2 k q) := by
  show FloatOps.matmul dot_S10000x64_S64x16_S10000x16_1_0_0_1_n_n none l r (constant (F := Ideal) S10000x16 .f32 0x00000000#32) (ix2 p q) = _
  rw [Ideal.matmul_constant_zero_apply, ← Equiv.sum_comp (contrEquiv1 dot_S10000x64_S64x16_S10000x16_1_0_0_1_n_n 64 rfl rfl).symm]
  refine Finset.sum_congr rfl fun k _ => ?_
  have hk := contrEquiv1_symm_val dot_S10000x64_S64x16_S10000x16_1_0_0_1_n_n 64 rfl rfl k
  have el : dot_S10000x64_S64x16_S10000x16_1_0_0_1_n_n.lhsIdx (ix2 p q) ((contrEquiv1 dot_S10000x64_S64x16_S10000x16_1_0_0_1_n_n 64 rfl rfl).symm k) = ix2 p k := funext fun a => Fin.ext (by
    match a with
    | ⟨0, _⟩ => exact lhsA_0 _ _
    | ⟨1, _⟩ => exact (lhsA_1 _ _).trans hk)
  have er : dot_S10000x64_S64x16_S10000x16_1_0_0_1_n_n.rhsIdx (ix2 p q) ((contrEquiv1 dot_S10000x64_S64x16_S10000x16_1_0_0_1_n_n 64 rfl rfl).symm k) = ix2 k q := funext fun a => Fin.ext (by
    match a with
    | ⟨0, _⟩ => exact (rhsA_0 _ _).trans hk
    | ⟨1, _⟩ => exact rhsA_1 _ _)
  rw [el, er]

/-! ### The product of `[10000, 16]` rows by `[16, 16]` columns, read at an index -/

private theorem lhsB_0 (i : S10000x16.Idx) (c : dot_S10000x16_S16x16_S10000x16_1_0_0_1_n_n.contr.Idx) :
    (dot_S10000x16_S16x16_S10000x16_1_0_0_1_n_n.lhsIdx i c 0).val = (i 0).val := by
  unfold DotDims.lhsIdx
  rw [dif_neg (show ¬(0 : Fin S10000x16.rank) ∈ dot_S10000x16_S16x16_S10000x16_1_0_0_1_n_n.lhsBatch by decide), dif_pos (show (0 : Fin S10000x16.rank) ∈ dot_S10000x16_S16x16_S10000x16_1_0_0_1_n_n.lhsNonContracting by decide)]
  rfl
private theorem lhsB_1 (i : S10000x16.Idx) (c : dot_S10000x16_S16x16_S10000x16_1_0_0_1_n_n.contr.Idx) :
    (dot_S10000x16_S16x16_S10000x16_1_0_0_1_n_n.lhsIdx i c 1).val = (c ⟨0, by decide⟩).val :=
  dot_S10000x16_S16x16_S10000x16_1_0_0_1_n_n.lhsIdx_val_of_single rfl i c
private theorem rhsB_0 (i : S10000x16.Idx) (c : dot_S10000x16_S16x16_S10000x16_1_0_0_1_n_n.contr.Idx) :
    (dot_S10000x16_S16x16_S10000x16_1_0_0_1_n_n.rhsIdx i c 0).val = (c ⟨0, by decide⟩).val :=
  dot_S10000x16_S16x16_S10000x16_1_0_0_1_n_n.rhsIdx_val_of_single rfl i c
private theorem rhsB_1 (i : S10000x16.Idx) (c : dot_S10000x16_S16x16_S10000x16_1_0_0_1_n_n.contr.Idx) :
    (dot_S10000x16_S16x16_S10000x16_1_0_0_1_n_n.rhsIdx i c 1).val = (i 1).val := by
  unfold DotDims.rhsIdx
  rw [dif_neg (show ¬(1 : Fin S16x16.rank) ∈ dot_S10000x16_S16x16_S10000x16_1_0_0_1_n_n.rhsBatch by decide), dif_pos (show (1 : Fin S16x16.rank) ∈ dot_S10000x16_S16x16_S10000x16_1_0_0_1_n_n.rhsNonContracting by decide)]
  rfl

/-- Into the zero block, the product at `(p, q)` is the sum over the shared coordinate of row `p` times column `q`. -/
private theorem matmulB_apply {φ₁ φ₂ : FTy} (l : FVec Ideal S10000x16 φ₁) (r : FVec Ideal S16x16 φ₂) (p : Fin 10000) (q : Fin 16) :
    matmul dot_S10000x16_S16x16_S10000x16_1_0_0_1_n_n none l r (constant (F := Ideal) S10000x16 .f32 0x00000000#32) (ix2 p q)
      = ∑ k : Fin 16, l (ix2 p k) * r (ix2 k q) := by
  show FloatOps.matmul dot_S10000x16_S16x16_S10000x16_1_0_0_1_n_n none l r (constant (F := Ideal) S10000x16 .f32 0x00000000#32) (ix2 p q) = _
  rw [Ideal.matmul_constant_zero_apply, ← Equiv.sum_comp (contrEquiv1 dot_S10000x16_S16x16_S10000x16_1_0_0_1_n_n 16 rfl rfl).symm]
  refine Finset.sum_congr rfl fun k _ => ?_
  have hk := contrEquiv1_symm_val dot_S10000x16_S16x16_S10000x16_1_0_0_1_n_n 16 rfl rfl k
  have el : dot_S10000x16_S16x16_S10000x16_1_0_0_1_n_n.lhsIdx (ix2 p q) ((contrEquiv1 dot_S10000x16_S16x16_S10000x16_1_0_0_1_n_n 16 rfl rfl).symm k) = ix2 p k := funext fun a => Fin.ext (by
    match a with
    | ⟨0, _⟩ => exact lhsB_0 _ _
    | ⟨1, _⟩ => exact (lhsB_1 _ _).trans hk)
  have er : dot_S10000x16_S16x16_S10000x16_1_0_0_1_n_n.rhsIdx (ix2 p q) ((contrEquiv1 dot_S10000x16_S16x16_S10000x16_1_0_0_1_n_n 16 rfl rfl).symm k) = ix2 k q := funext fun a => Fin.ext (by
    match a with
    | ⟨0, _⟩ => exact (rhsB_0 _ _).trans hk
    | ⟨1, _⟩ => exact rhsB_1 _ _)
  rw [el, er]

/-! ### The product of `[10000, 16]` rows by `[16, 7]` columns, read at an index -/

private theorem lhsC_0 (i : S10000x7.Idx) (c : dot_S10000x16_S16x7_S10000x7_1_0_0_1_n_n.contr.Idx) :
    (dot_S10000x16_S16x7_S10000x7_1_0_0_1_n_n.lhsIdx i c 0).val = (i 0).val := by
  unfold DotDims.lhsIdx
  rw [dif_neg (show ¬(0 : Fin S10000x16.rank) ∈ dot_S10000x16_S16x7_S10000x7_1_0_0_1_n_n.lhsBatch by decide), dif_pos (show (0 : Fin S10000x16.rank) ∈ dot_S10000x16_S16x7_S10000x7_1_0_0_1_n_n.lhsNonContracting by decide)]
  rfl
private theorem lhsC_1 (i : S10000x7.Idx) (c : dot_S10000x16_S16x7_S10000x7_1_0_0_1_n_n.contr.Idx) :
    (dot_S10000x16_S16x7_S10000x7_1_0_0_1_n_n.lhsIdx i c 1).val = (c ⟨0, by decide⟩).val :=
  dot_S10000x16_S16x7_S10000x7_1_0_0_1_n_n.lhsIdx_val_of_single rfl i c
private theorem rhsC_0 (i : S10000x7.Idx) (c : dot_S10000x16_S16x7_S10000x7_1_0_0_1_n_n.contr.Idx) :
    (dot_S10000x16_S16x7_S10000x7_1_0_0_1_n_n.rhsIdx i c 0).val = (c ⟨0, by decide⟩).val :=
  dot_S10000x16_S16x7_S10000x7_1_0_0_1_n_n.rhsIdx_val_of_single rfl i c
private theorem rhsC_1 (i : S10000x7.Idx) (c : dot_S10000x16_S16x7_S10000x7_1_0_0_1_n_n.contr.Idx) :
    (dot_S10000x16_S16x7_S10000x7_1_0_0_1_n_n.rhsIdx i c 1).val = (i 1).val := by
  unfold DotDims.rhsIdx
  rw [dif_neg (show ¬(1 : Fin S16x7.rank) ∈ dot_S10000x16_S16x7_S10000x7_1_0_0_1_n_n.rhsBatch by decide), dif_pos (show (1 : Fin S16x7.rank) ∈ dot_S10000x16_S16x7_S10000x7_1_0_0_1_n_n.rhsNonContracting by decide)]
  rfl

/-- Into the zero block, the product at `(p, q)` is the sum over the shared coordinate of row `p` times column `q`. -/
private theorem matmulC_apply {φ₁ φ₂ : FTy} (l : FVec Ideal S10000x16 φ₁) (r : FVec Ideal S16x7 φ₂) (p : Fin 10000) (q : Fin 7) :
    matmul dot_S10000x16_S16x7_S10000x7_1_0_0_1_n_n none l r (constant (F := Ideal) S10000x7 .f32 0x00000000#32) (ix2 p q)
      = ∑ k : Fin 16, l (ix2 p k) * r (ix2 k q) := by
  show FloatOps.matmul dot_S10000x16_S16x7_S10000x7_1_0_0_1_n_n none l r (constant (F := Ideal) S10000x7 .f32 0x00000000#32) (ix2 p q) = _
  rw [Ideal.matmul_constant_zero_apply, ← Equiv.sum_comp (contrEquiv1 dot_S10000x16_S16x7_S10000x7_1_0_0_1_n_n 16 rfl rfl).symm]
  refine Finset.sum_congr rfl fun k _ => ?_
  have hk := contrEquiv1_symm_val dot_S10000x16_S16x7_S10000x7_1_0_0_1_n_n 16 rfl rfl k
  have el : dot_S10000x16_S16x7_S10000x7_1_0_0_1_n_n.lhsIdx (ix2 p q) ((contrEquiv1 dot_S10000x16_S16x7_S10000x7_1_0_0_1_n_n 16 rfl rfl).symm k) = ix2 p k := funext fun a => Fin.ext (by
    match a with
    | ⟨0, _⟩ => exact lhsC_0 _ _
    | ⟨1, _⟩ => exact (lhsC_1 _ _).trans hk)
  have er : dot_S10000x16_S16x7_S10000x7_1_0_0_1_n_n.rhsIdx (ix2 p q) ((contrEquiv1 dot_S10000x16_S16x7_S10000x7_1_0_0_1_n_n 16 rfl rfl).symm k) = ix2 k q := funext fun a => Fin.ext (by
    match a with
    | ⟨0, _⟩ => exact (rhsC_0 _ _).trans hk
    | ⟨1, _⟩ => exact rhsC_1 _ _)
  rw [el, er]

/-! ### Pointwise exponential and logarithm, and the two row reductions of a `[10000, 7]` block -/

private theorem exp_apply' {s : Shape} {φ : FTy} (a : FVec Ideal s φ) (i : s.Idx) : exp a i = Ideal.exp (a i) := rfl
private theorem log_apply' {s : Shape} {φ : FTy} (a : FVec Ideal s φ) (i : s.Idx) : log a i = Ideal.log (a i) := rfl

/-- The index over row `p` with column `r` inserted is `(p, r)`. -/
private theorem lift_row (h : S10000x7.Reduces [1] S10000) (p : Fin 10000) (r : Fin 7) :
    h.lift (ix1 p) r = ix2 p r :=
  funext fun a => Fin.ext (by
    match a with
    | ⟨0, _⟩ => rfl
    | ⟨1, _⟩ => rfl)

/-- The maximum over axis 1 at row `p`: the fold of `max` from minus infinity over the row. -/
private theorem rowMax_apply (src : FVec Ideal S10000x7 .f32) (h : S10000x7.Reduces [1] S10000)
    (hφ : FTy.f32 = FTy.f32 ∨ FTy.f32 = FTy.bf16) (hacc : (0xFF800000#32 : BitVec 32) = 0xFF800000#32) (p : Fin 10000) :
    multiReduction (F := Ideal) .maximumf [1] S10000 src 0xFF800000#32 h hφ hacc (ix1 p)
      = (Finset.univ : Finset (Fin 7)).fold max (Ideal.ofBits .f32 0xFF800000#32) (fun r => src (ix2 p r)) := by
  refine (Ideal.multiReduction_maximumf_single src 0xFF800000#32 h hφ hacc (ix1 p)).trans ?_
  show (Finset.univ : Finset (Fin 7)).fold max (Ideal.ofBits .f32 0xFF800000#32) (fun r => src (h.lift (ix1 p) r)) = _
  exact congrArg (fun f => (Finset.univ : Finset (Fin 7)).fold max (Ideal.ofBits .f32 0xFF800000#32) f)
    (funext fun r => congrArg src (lift_row h p r))

/-- The sum over axis 1 at row `p`: the sum of the row. -/
private theorem rowSum_apply (src : FVec Ideal S10000x7 .f32) (h : S10000x7.Reduces [1] S10000)
    (hφ : FTy.f32 = FTy.f32 ∨ FTy.f32 = FTy.bf16) (hacc : (0x00000000#32 : BitVec 32) = 0x00000000#32) (p : Fin 10000) :
    multiReduction (F := Ideal) .add [1] S10000 src 0x00000000#32 h hφ hacc (ix1 p)
      = ∑ r : Fin 7, src (ix2 p r) := by
  refine (Ideal.multiReduction_add_single src 0x00000000#32 h hφ hacc (ix1 p)).trans ?_
  show ∑ r : Fin 7, src (h.lift (ix1 p) r) = _
  exact Finset.sum_congr rfl fun r _ => congrArg src (lift_row h p r)

/-! ### The two stored blocks -/

/-- The first body's stored block at row `p`, column `q`: the first node update of row `p` of the two loaded
    feature blocks, with the loaded weights and the biases' single rows. -/
theorem k0_pay1_apply (x0 x1 : Vec Ideal S10000x64 .f32) (x2 : Vec Ideal S64x16 .f32) (x3 : Vec Ideal S1x16 .f32)
    (x4 : Vec Ideal S16x16 .f32) (x5 : Vec Ideal S1x16 .f32) (p : Fin 10000) (q : Fin 16) :
    k0_pay1 (F := Ideal) x0 x1 x2 x3 x4 x5 (ix2 p q)
      = Cert.Spec.mlp1 (fun k => x0 (ix2 p k)) (fun k => x1 (ix2 p k)) (fun k j => x2 (ix2 k j))
          (fun j => x3 (ix2 (0 : Fin 1) j)) (fun k j => x4 (ix2 k j)) (fun j => x5 (ix2 (0 : Fin 1) j)) q := by
  unfold k0_pay1 Cert.Spec.mlp1 Cert.Spec.lin
  -- the casts to the same shape are the identity
  simp only [shapeCast_self]
  -- every remaining operation is read at its index: the rectifiers and sums pointwise, the narrowings as the identity,
  -- a bias row at its column, each product as the sum over the shared coordinate
  simp only [maximumf_apply, addf_apply, broadcast_apply, matmulB_apply, truncf_apply, broadcastTo_1b_ab_apply,
    matmulA_apply, Ideal.ofBits_def]

/-- The second body's stored block at row `p`, column `q`: the second node update (logits, then the row's
    log-softmax) of row `p` of the two loaded blocks. -/
theorem k1_pay1_apply (x0 x1 : Vec Ideal S10000x16 .f32) (x2 : Vec Ideal S16x16 .f32) (x3 : Vec Ideal S1x16 .f32)
    (x4 : Vec Ideal S16x7 .f32) (x5 : Vec Ideal S1x7 .f32) (p : Fin 10000) (q : Fin 7) :
    k1_pay1 (F := Ideal) x0 x1 x2 x3 x4 x5 (ix2 p q)
      = Cert.Spec.mlp2 (fun k => x0 (ix2 p k)) (fun k => x1 (ix2 p k)) (fun k j => x2 (ix2 k j))
          (fun j => x3 (ix2 (0 : Fin 1) j)) (fun k j => x4 (ix2 k j)) (fun j => x5 (ix2 (0 : Fin 1) j)) q := by
  unfold k1_pay1 Cert.Spec.mlp2 Cert.Spec.lsm Cert.Spec.rowMax Cert.Spec.logits Cert.Spec.lin
  -- the casts to the same shape are the identity
  simp only [shapeCast_self]
  -- the two subtractions and the logarithm pointwise; a column broadcast over the columns reads the column's entry of row p
  simp only [subf_apply, log_apply', Cert.LibLayout.broadcastTo_a1_ab_apply, Cert.LibLayout.shapeCast_a_a1_apply]
  -- the sum over axis 1 at row p is the sum of the row of exponentials
  rw [rowSum_apply]
  simp only [subf_apply, exp_apply', Cert.LibLayout.broadcastTo_a1_ab_apply, Cert.LibLayout.shapeCast_a_a1_apply]
  -- the maximum over axis 1 at row p is the fold of max from minus infinity over the row of logits
  rw [rowMax_apply]
  -- the logits at (p, r): rectifier and sums pointwise, the narrowings as the identity, the bias rows at their columns,
  -- each product as the sum over the shared coordinate
  simp only [maximumf_apply, addf_apply, broadcast_apply, matmulB_apply, matmulC_apply, truncf_apply, broadcastTo_1b_ab_apply,
    Ideal.ofBits_def]

end Cert.KernelIdeal.Payload

end
-- ==== Proof.KernelRegions.lean ====
/-
  What each pallas_call leaves in its output array, as ONE function of the arrays the region finds: the block a grid
  point writes back is rows `10000·t … 10000·t + 9999` of the row-wise node update, and the ten blocks cover the array.
-/
import proofs.«164027_j34832184770974_1_alg».proof.Proof.Gen.KernelIdeal.Frame
import proofs.«164027_j34832184770974_1_alg».proof.Proof.Spec
import proofs.«164027_j34832184770974_1_alg».proof.Proof.KernelPayload
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Payload

variable (V : (c : Dev nD) → (b : Ref sig .tc) → Buf (Elt Ideal) ((c : Thread nD τ).loc b))

theorem hz : (![0, 0] : Fin 2 → Nat) = fun _ => 0 := funext fun a => by fin_cases a <;> rfl

/-! ## The first call -/

/-- The first call's output array after the run, from the arrays it finds: the hidden features of every node. -/
def G0 (c : Dev nD) : S100000x16.Idx → EReal :=
  Cert.Spec.hid (V c main_arg0) (V c main_v13) (fun k j => V c main_arg2 (ix2 k j)) (fun j => V c main_v14 (ix2 (0 : Fin 1) j))
    (fun k j => V c main_arg4 (ix2 k j)) (fun j => V c main_v15 (ix2 (0 : Fin 1) j))

/-- The printed index maps over the grid: the two row-blocked inputs move with the output, on the row axis only; the
    weights and biases stay at their one block. -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of `G0`. -/
theorem flushed0_eq (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S10000x64) hz, View.ld_unit_zero (S := S64x16) hz, View.ld_unit_zero (S := S1x16) hz,
    View.ld_unit_zero (S := S16x16) hz]
  funext y
  obtain ⟨p, q, rfl⟩ : ∃ (p : Fin 10000) (q : Fin 16), y = ix2 p q := ⟨y 0, y 1, eq_ix2 y⟩
  show k0_pay1 (F := Ideal) (iblk0 V c 0 t) (iblk0 V c 1 t) (iblk0 V c 2 t) (iblk0 V c 3 t) (iblk0 V c 4 t) (iblk0 V c 5 t) (ix2 p q)
    = G0 V c (((cfg0.win 6).blk t).view.emb (ix2 p q))
  refine (k0_pay1_apply _ _ _ _ _ _ p q).trans ?_
  obtain ⟨e00, e01, e10, e11, e20, e21, e30, e31, e40, e41, e50, e51, e60, e61⟩ := idx_facts0 t
  have hp : p.val < 10000 := p.isLt
  have ht : t.val < 10 := lt_of_lt_of_eq t.isLt N_0
  -- the row of the array this block entry sits in, and its column
  have hrow : (Cert.Spec.rowOf (((cfg0.win 6).blk t).view.emb (ix2 p q)) : Fin 100000) = ⟨t.val * 10000 + p.val, by omega⟩ := by
    apply Fin.ext
    show win0_6.index t (0 : Fin 2) * 10000 + 1 * p.val = t.val * 10000 + p.val
    omega
  have hcol : (Cert.Spec.colOf (((cfg0.win 6).blk t).view.emb (ix2 p q)) : Fin 16) = q := by
    apply Fin.ext
    show win0_6.index t (1 : Fin 2) * 16 + 1 * q.val = q.val
    omega
  unfold G0 Cert.Spec.hid
  rw [hrow, hcol]
  have r0 : (fun (k : Fin 64) => iblk0 V c 0 t (ix2 p k)) = fun (k : Fin 64) => V c main_arg0 (ix2 (⟨t.val * 10000 + p.val, by omega⟩ : Fin 100000) k) := by
    funext k
    show V c main_arg0 (((cfg0.win 0).blk t).view.emb (ix2 p k)) = _
    refine congrArg (V c main_arg0) ?_
    funext a; apply Fin.ext
    match a with
    | ⟨0, _⟩ => show win0_0.index t (0 : Fin 2) * 10000 + 1 * p.val = t.val * 10000 + p.val; omega
    | ⟨1, _⟩ => show win0_0.index t (1 : Fin 2) * 64 + 1 * k.val = k.val; omega
  have r1 : (fun (k : Fin 64) => iblk0 V c 1 t (ix2 p k)) = fun (k : Fin 64) => V c main_v13 (ix2 (⟨t.val * 10000 + p.val, by omega⟩ : Fin 100000) k) := by
    funext k
    show V c main_v13 (((cfg0.win 1).blk t).view.emb (ix2 p k)) = _
    refine congrArg (V c main_v13) ?_
    funext a; apply Fin.ext
    match a with
    | ⟨0, _⟩ => show win0_1.index t (0 : Fin 2) * 10000 + 1 * p.val = t.val * 10000 + p.val; omega
    | ⟨1, _⟩ => show win0_1.index t (1 : Fin 2) * 64 + 1 * k.val = k.val; omega
  have r2 : (fun (k : Fin 64) (j : Fin 16) => iblk0 V c 2 t (ix2 k j)) = fun (k : Fin 64) (j : Fin 16) => V c main_arg2 (ix2 k j) := by
    funext k j
    show V c main_arg2 (((cfg0.win 2).blk t).view.emb (ix2 k j)) = _
    refine congrArg (V c main_arg2) ?_
    funext a; apply Fin.ext
    match a with
    | ⟨0, _⟩ => show win0_2.index t (0 : Fin 2) * 64 + 1 * k.val = k.val; omega
    | ⟨1, _⟩ => show win0_2.index t (1 : Fin 2) * 16 + 1 * j.val = j.val; omega
  have r3 : (fun (j : Fin 16) => iblk0 V c 3 t (ix2 (0 : Fin 1) j)) = fun (j : Fin 16) => V c main_v14 (ix2 (0 : Fin 1) j) := by
    funext j
    show V c main_v14 (((cfg0.win 3).blk t).view.emb (ix2 (0 : Fin 1) j)) = _
    refine congrArg (V c main_v14) ?_
    funext a; apply Fin.ext
    match a with
    | ⟨0, _⟩ => show win0_3.index t (0 : Fin 2) * 1 + 1 * (0 : Fin 1).val = (0 : Fin 1).val; omega
    | ⟨1, _⟩ => show win0_3.index t (1 : Fin 2) * 16 + 1 * j.val = j.val; omega
  have r4 : (fun (k : Fin 16) (j : Fin 16) => iblk0 V c 4 t (ix2 k j)) = fun (k : Fin 16) (j : Fin 16) => V c main_arg4 (ix2 k j) := by
    funext k j
    show V c main_arg4 (((cfg0.win 4).blk t).view.emb (ix2 k j)) = _
    refine congrArg (V c main_arg4) ?_
    funext a; apply Fin.ext
    match a with
    | ⟨0, _⟩ => show win0_4.index t (0 : Fin 2) * 16 + 1 * k.val = k.val; omega
    | ⟨1, _⟩ => show win0_4.index t (1 : Fin 2) * 16 + 1 * j.val = j.val; omega
  have r5 : (fun (j : Fin 16) => iblk0 V c 5 t (ix2 (0 : Fin 1) j)) = fun (j : Fin 16) => V c main_v15 (ix2 (0 : Fin 1) j) := by
    funext j
    show V c main_v15 (((cfg0.win 5).blk t).view.emb (ix2 (0 : Fin 1) j)) = _
    refine congrArg (V c main_v15) ?_
    funext a; apply Fin.ext
    match a with
    | ⟨0, _⟩ => show win0_5.index t (0 : Fin 2) * 1 + 1 * (0 : Fin 1).val = (0 : Fin 1).val; omega
    | ⟨1, _⟩ => show win0_5.index t (1 : Fin 2) * 16 + 1 * j.val = j.val; omega
  rw [r0, r1, r2, r3, r4, r5]

/-- An index of the array is in point `t`'s block iff each coordinate is in the block's range on its axis. -/
theorem mem_blk0 (t : Fin cfg0.N) (i : S100000x16.Idx) :
    i ∈ ((cfg0.win 6).blk t).view.set ↔ ∀ a : Fin 2, win0_6.index t a * S10000x16.size a ≤ (i a).val ∧ (i a).val < win0_6.index t a * S10000x16.size a + S10000x16.size a := by
  show i ∈ ((View.whole main_v16).slice (win0_6.rect t)).set ↔ _
  rw [View.set_slice_whole, Rect.mem_set_unit]
  exact Iff.rfl

/-- Every row of the array lies in the block of the point `row / 10000`. -/
theorem cover0 (i : S100000x16.Idx) : ∃ t : Fin cfg0.N, (cfg0.win 6).flush t = true ∧ i ∈ ((cfg0.win 6).blk t).view.set := by
  have hi0 : (i 0).val < 100000 := (i 0).isLt
  have hi1 : (i 1).val < 16 := (i 1).isLt
  have hN : (i 0).val / 10000 < cfg0.N := lt_of_lt_of_eq (by omega : (i 0).val / 10000 < 10) N_0.symm
  obtain ⟨_, _, _, _, _, _, _, _, _, _, _, _, e60, e61⟩ := idx_facts0 ⟨(i 0).val / 10000, hN⟩
  have e60' : win0_6.index ⟨(i 0).val / 10000, hN⟩ (0 : Fin 2) = (i 0).val / 10000 := e60
  refine ⟨⟨(i 0).val / 10000, hN⟩, flush0_6 _, ?_⟩
  rw [mem_blk0]
  intro a
  match a with
  | ⟨0, _⟩ =>
    show win0_6.index ⟨(i 0).val / 10000, hN⟩ (0 : Fin 2) * 10000 ≤ (i 0).val ∧ (i 0).val < win0_6.index ⟨(i 0).val / 10000, hN⟩ (0 : Fin 2) * 10000 + 10000
    omega
  | ⟨1, _⟩ =>
    show win0_6.index ⟨(i 0).val / 10000, hN⟩ (1 : Fin 2) * 16 ≤ (i 1).val ∧ (i 1).val < win0_6.index ⟨(i 0).val / 10000, hN⟩ (1 : Fin 2) * 16 + 16
    omega

/-- The first call's output array after the run IS `G0` of what the region found. -/
theorem final0 (c : Dev nD) : (dat0 V c).arrAt 6 cfg0.N = G0 V c :=
  (dat0 V c).arrAt_eq_of_cover 6 (G0 V c) (fun t _ => flushed0_eq V c t) cover0

/-! ## The second call -/

/-- The second call's output array after the run, from the arrays it finds: the class scores of every node. -/
def G1 (c : Dev nD) : S100000x7.Idx → EReal :=
  Cert.Spec.outp (V c main_v16) (V c main_v26) (fun k j => V c main_arg6 (ix2 k j)) (fun j => V c main_v27 (ix2 (0 : Fin 1) j))
    (fun k j => V c main_arg8 (ix2 k j)) (fun j => V c main_v28 (ix2 (0 : Fin 1) j))

/-- The printed index maps over the grid, as for the first call. -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of `G1`. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz]
  simp only [View.ld_unit_zero (S := S10000x16) hz, View.ld_unit_zero (S := S16x16) hz, View.ld_unit_zero (S := S1x16) hz,
    View.ld_unit_zero (S := S16x7) hz, View.ld_unit_zero (S := S1x7) hz]
  funext y
  obtain ⟨p, q, rfl⟩ : ∃ (p : Fin 10000) (q : Fin 7), y = ix2 p q := ⟨y 0, y 1, eq_ix2 y⟩
  show k1_pay1 (F := Ideal) (iblk1 V c 0 t) (iblk1 V c 1 t) (iblk1 V c 2 t) (iblk1 V c 3 t) (iblk1 V c 4 t) (iblk1 V c 5 t) (ix2 p q)
    = G1 V c (((cfg1.win 6).blk t).view.emb (ix2 p q))
  refine (k1_pay1_apply _ _ _ _ _ _ p q).trans ?_
  obtain ⟨e00, e01, e10, e11, e20, e21, e30, e31, e40, e41, e50, e51, e60, e61⟩ := idx_facts1 t
  have hp : p.val < 10000 := p.isLt
  have ht : t.val < 10 := lt_of_lt_of_eq t.isLt N_1
  -- the row of the array this block entry sits in, and its column
  have hrow : (Cert.Spec.rowOf (((cfg1.win 6).blk t).view.emb (ix2 p q)) : Fin 100000) = ⟨t.val * 10000 + p.val, by omega⟩ := by
    apply Fin.ext
    show win1_6.index t (0 : Fin 2) * 10000 + 1 * p.val = t.val * 10000 + p.val
    omega
  have hcol : (Cert.Spec.colOf (((cfg1.win 6).blk t).view.emb (ix2 p q)) : Fin 7) = q := by
    apply Fin.ext
    show win1_6.index t (1 : Fin 2) * 7 + 1 * q.val = q.val
    omega
  unfold G1 Cert.Spec.outp
  rw [hrow, hcol]
  have r0 : (fun (k : Fin 16) => iblk1 V c 0 t (ix2 p k)) = fun (k : Fin 16) => V c main_v16 (ix2 (⟨t.val * 10000 + p.val, by omega⟩ : Fin 100000) k) := by
    funext k
    show V c main_v16 (((cfg1.win 0).blk t).view.emb (ix2 p k)) = _
    refine congrArg (V c main_v16) ?_
    funext a; apply Fin.ext
    match a with
    | ⟨0, _⟩ => show win1_0.index t (0 : Fin 2) * 10000 + 1 * p.val = t.val * 10000 + p.val; omega
    | ⟨1, _⟩ => show win1_0.index t (1 : Fin 2) * 16 + 1 * k.val = k.val; omega
  have r1 : (fun (k : Fin 16) => iblk1 V c 1 t (ix2 p k)) = fun (k : Fin 16) => V c main_v26 (ix2 (⟨t.val * 10000 + p.val, by omega⟩ : Fin 100000) k) := by
    funext k
    show V c main_v26 (((cfg1.win 1).blk t).view.emb (ix2 p k)) = _
    refine congrArg (V c main_v26) ?_
    funext a; apply Fin.ext
    match a with
    | ⟨0, _⟩ => show win1_1.index t (0 : Fin 2) * 10000 + 1 * p.val = t.val * 10000 + p.val; omega
    | ⟨1, _⟩ => show win1_1.index t (1 : Fin 2) * 16 + 1 * k.val = k.val; omega
  have r2 : (fun (k : Fin 16) (j : Fin 16) => iblk1 V c 2 t (ix2 k j)) = fun (k : Fin 16) (j : Fin 16) => V c main_arg6 (ix2 k j) := by
    funext k j
    show V c main_arg6 (((cfg1.win 2).blk t).view.emb (ix2 k j)) = _
    refine congrArg (V c main_arg6) ?_
    funext a; apply Fin.ext
    match a with
    | ⟨0, _⟩ => show win1_2.index t (0 : Fin 2) * 16 + 1 * k.val = k.val; omega
    | ⟨1, _⟩ => show win1_2.index t (1 : Fin 2) * 16 + 1 * j.val = j.val; omega
  have r3 : (fun (j : Fin 16) => iblk1 V c 3 t (ix2 (0 : Fin 1) j)) = fun (j : Fin 16) => V c main_v27 (ix2 (0 : Fin 1) j) := by
    funext j
    show V c main_v27 (((cfg1.win 3).blk t).view.emb (ix2 (0 : Fin 1) j)) = _
    refine congrArg (V c main_v27) ?_
    funext a; apply Fin.ext
    match a with
    | ⟨0, _⟩ => show win1_3.index t (0 : Fin 2) * 1 + 1 * (0 : Fin 1).val = (0 : Fin 1).val; omega
    | ⟨1, _⟩ => show win1_3.index t (1 : Fin 2) * 16 + 1 * j.val = j.val; omega
  have r4 : (fun (k : Fin 16) (j : Fin 7) => iblk1 V c 4 t (ix2 k j)) = fun (k : Fin 16) (j : Fin 7) => V c main_arg8 (ix2 k j) := by
    funext k j
    show V c main_arg8 (((cfg1.win 4).blk t).view.emb (ix2 k j)) = _
    refine congrArg (V c main_arg8) ?_
    funext a; apply Fin.ext
    match a with
    | ⟨0, _⟩ => show win1_4.index t (0 : Fin 2) * 16 + 1 * k.val = k.val; omega
    | ⟨1, _⟩ => show win1_4.index t (1 : Fin 2) * 7 + 1 * j.val = j.val; omega
  have r5 : (fun (j : Fin 7) => iblk1 V c 5 t (ix2 (0 : Fin 1) j)) = fun (j : Fin 7) => V c main_v28 (ix2 (0 : Fin 1) j) := by
    funext j
    show V c main_v28 (((cfg1.win 5).blk t).view.emb (ix2 (0 : Fin 1) j)) = _
    refine congrArg (V c main_v28) ?_
    funext a; apply Fin.ext
    match a with
    | ⟨0, _⟩ => show win1_5.index t (0 : Fin 2) * 1 + 1 * (0 : Fin 1).val = (0 : Fin 1).val; omega
    | ⟨1, _⟩ => show win1_5.index t (1 : Fin 2) * 7 + 1 * j.val = j.val; omega
  rw [r0, r1, r2, r3, r4, r5]

/-- An index of the array is in point `t`'s block iff each coordinate is in the block's range on its axis. -/
theorem mem_blk1 (t : Fin cfg1.N) (i : S100000x7.Idx) :
    i ∈ ((cfg1.win 6).blk t).view.set ↔ ∀ a : Fin 2, win1_6.index t a * S10000x7.size a ≤ (i a).val ∧ (i a).val < win1_6.index t a * S10000x7.size a + S10000x7.size a := by
  show i ∈ ((View.whole main_v29).slice (win1_6.rect t)).set ↔ _
  rw [View.set_slice_whole, Rect.mem_set_unit]
  exact Iff.rfl

/-- Every row of the array lies in the block of the point `row / 10000`. -/
theorem cover1 (i : S100000x7.Idx) : ∃ t : Fin cfg1.N, (cfg1.win 6).flush t = true ∧ i ∈ ((cfg1.win 6).blk t).view.set := by
  have hi0 : (i 0).val < 100000 := (i 0).isLt
  have hi1 : (i 1).val < 7 := (i 1).isLt
  have hN : (i 0).val / 10000 < cfg1.N := lt_of_lt_of_eq (by omega : (i 0).val / 10000 < 10) N_1.symm
  obtain ⟨_, _, _, _, _, _, _, _, _, _, _, _, e60, e61⟩ := idx_facts1 ⟨(i 0).val / 10000, hN⟩
  have e60' : win1_6.index ⟨(i 0).val / 10000, hN⟩ (0 : Fin 2) = (i 0).val / 10000 := e60
  refine ⟨⟨(i 0).val / 10000, hN⟩, flush1_6 _, ?_⟩
  rw [mem_blk1]
  intro a
  match a with
  | ⟨0, _⟩ =>
    show win1_6.index ⟨(i 0).val / 10000, hN⟩ (0 : Fin 2) * 10000 ≤ (i 0).val ∧ (i 0).val < win1_6.index ⟨(i 0).val / 10000, hN⟩ (0 : Fin 2) * 10000 + 10000
    omega
  | ⟨1, _⟩ =>
    show win1_6.index ⟨(i 0).val / 10000, hN⟩ (1 : Fin 2) * 7 ≤ (i 1).val ∧ (i 1).val < win1_6.index ⟨(i 0).val / 10000, hN⟩ (1 : Fin 2) * 7 + 7
    omega

/-- The second call's output array after the run IS `G1` of what the region found. -/
theorem final1 (c : Dev nD) : (dat1 V c).arrAt 6 cfg1.N = G1 V c :=
  (dat1 V c).arrAt_eq_of_cover 6 (G1 V c) (fun t _ => flushed1_eq V c t) cover1

end Cert.KernelIdeal.Regions

end
-- ==== Proof.KernelValue.lean ====
/-
  The kernel program's result as one function of its arguments.  Between the launch and the return the buffers pass
  through four boundaries: the host operations before the first call (the neighbour sum of the features, the biases
  made rows), the first call (the hidden features, block by block), the host operations between the calls (the
  neighbour sum of the hidden features), the second call (the class scores).  Each boundary's contents are read here
  from the previous one's, down to the launch memory.
-/
import proofs.«164027_j34832184770974_1_alg».proof.Proof.Gen.KernelIdeal.Frame
import proofs.«164027_j34832184770974_1_alg».proof.Proof.Spec
import proofs.«164027_j34832184770974_1_alg».proof.Proof.KernelRegions
import Idealize.ShloMosaic.Lib.Pipeline.Value
import Idealize.ShloMosaic.Lib.ValueIdx
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen

variable {F : FTy → Type} [FloatOps F]

/-! ## The aggregation both layers share, as one function of the node features and the edge list -/

/-- The edges' source nodes: row 0 of the edge list, a negative id wrapped once by the node count, as a column. -/
def srcCol (ei : (⟨S2x1250000, .i32⟩ : BufTy).Contents (Elt F)) : (⟨S1250000x1, .i32⟩ : BufTy).Contents (Elt F) :=
  broadcastInDim S1250000x1 ![0] bcast_S1250000_S1250000x1_0
    (select
      (cmpi .slt (shapeCast S1250000 (extractStridedSlice S1x1250000 ![0, 0] ei slices_S2x1250000_S1x1250000_0_0) shapeCasts_S1x1250000_S1250000)
        (broadcastInDim S1250000 ![] bcast_S_S1250000 (constantI S_ 32 0#32)))
      (addi (shapeCast S1250000 (extractStridedSlice S1x1250000 ![0, 0] ei slices_S2x1250000_S1x1250000_0_0) shapeCasts_S1x1250000_S1250000)
        (broadcastInDim S1250000 ![] bcast_S_S1250000 (constantI S_ 32 100000#32)))
      (shapeCast S1250000 (extractStridedSlice S1x1250000 ![0, 0] ei slices_S2x1250000_S1x1250000_0_0) shapeCasts_S1x1250000_S1250000))

/-- The edges' destination nodes: row 1 of the edge list, as a column. -/
def dstCol (ei : (⟨S2x1250000, .i32⟩ : BufTy).Contents (Elt F)) : (⟨S1250000x1, .i32⟩ : BufTy).Contents (Elt F) :=
  broadcastInDim S1250000x1 ![0] bcast_S1250000_S1250000x1_0
    (shapeCast S1250000 (extractStridedSlice S1x1250000 ![1, 0] ei slices_S2x1250000_S1x1250000_1_0) shapeCasts_S1x1250000_S1250000)

/-- The neighbour sum of 64-wide features: gather each edge's source row, scatter-add it into its destination row of zeros. -/
def agg64 (x : (⟨S100000x64, .f32⟩ : BufTy).Contents (Elt F)) (ei : (⟨S2x1250000, .i32⟩ : BufTy).Contents (Elt F)) : (⟨S100000x64, .f32⟩ : BufTy).Contents (Elt F) :=
  Host.scatterAdd scatter_S100000x64_S1250000x1_S1250000x64_1_0_0_1
    (broadcastInDim S100000x64 ![] bcast_S_S100000x64 (constant S_ .f32 0x00000000#32)) (dstCol ei)
    (Host.gather gather_S100000x64_S1250000x1_S1250000x64_1_0_n_n_0_1_164 x (srcCol ei))

/-- The neighbour sum of 16-wide features, by the same edges. -/
def agg16 (h : (⟨S100000x16, .f32⟩ : BufTy).Contents (Elt F)) (ei : (⟨S2x1250000, .i32⟩ : BufTy).Contents (Elt F)) : (⟨S100000x16, .f32⟩ : BufTy).Contents (Elt F) :=
  Host.scatterAdd scatter_S100000x16_S1250000x1_S1250000x16_1_0_0_1
    (broadcastInDim S100000x16 ![] bcast_S_S100000x16 (constant S_ .f32 0x00000000#32)) (dstCol ei)
    (Host.gather gather_S100000x16_S1250000x1_S1250000x16_1_0_n_n_0_1_116 h (srcCol ei))

variable (m : (ℓ : Loc nD τ sig) → Buf (Elt F) ℓ) (ρ : Dev nD → PrngReg)

/-! ## The buffers the first call finds -/

theorem V1_arg0 (c : Dev nD) : V1 m ρ c main_arg0 = m ((c.tc : Thread nD τ).loc main_arg0) := by
  show W1 m ρ c (Proc.devRef .tc main_arg0) = _
  dsimp only [W1, hostOps0]; after_results
theorem V1_arg2 (c : Dev nD) : V1 m ρ c main_arg2 = m ((c.tc : Thread nD τ).loc main_arg2) := by
  show W1 m ρ c (Proc.devRef .tc main_arg2) = _
  dsimp only [W1, hostOps0]; after_results
theorem V1_arg4 (c : Dev nD) : V1 m ρ c main_arg4 = m ((c.tc : Thread nD τ).loc main_arg4) := by
  show W1 m ρ c (Proc.devRef .tc main_arg4) = _
  dsimp only [W1, hostOps0]; after_results
theorem V1_v13 (c : Dev nD) : V1 m ρ c main_v13 = agg64 (m ((c.tc : Thread nD τ).loc main_arg0)) (m ((c.tc : Thread nD τ).loc main_arg1)) := by
  show W1 m ρ c (Proc.devRef .tc main_v13) = _
  dsimp only [W1, hostOps0]; after_results; rfl
theorem V1_v14 (c : Dev nD) : V1 m ρ c main_v14 = shapeCast S1x16 (m ((c.tc : Thread nD τ).loc main_arg3)) shapeCasts_S16_S1x16 := by
  show W1 m ρ c (Proc.devRef .tc main_v14) = _
  dsimp only [W1, hostOps0]; after_results; rfl
theorem V1_v15 (c : Dev nD) : V1 m ρ c main_v15 = shapeCast S1x16 (m ((c.tc : Thread nD τ).loc main_arg5)) shapeCasts_S16_S1x16 := by
  show W1 m ρ c (Proc.devRef .tc main_v15) = _
  dsimp only [W1, hostOps0]; after_results; rfl

/-! ## The buffers the second call finds -/

theorem W2_v1 (c : Dev nD) : W2 m ρ c (Proc.devRef .tc main_v1)
    = shapeCast S1250000 (extractStridedSlice S1x1250000 ![0, 0] (m ((c.tc : Thread nD τ).loc main_arg1)) slices_S2x1250000_S1x1250000_0_0) shapeCasts_S1x1250000_S1250000 := by
  rw [W2_of_ne m ρ c main_v1 (by decide)]
  dsimp only [W1, hostOps0]; after_results; rfl
theorem W2_v3 (c : Dev nD) : W2 m ρ c (Proc.devRef .tc main_v3)
    = shapeCast S1250000 (extractStridedSlice S1x1250000 ![1, 0] (m ((c.tc : Thread nD τ).loc main_arg1)) slices_S2x1250000_S1x1250000_1_0) shapeCasts_S1x1250000_S1250000 := by
  rw [W2_of_ne m ρ c main_v3 (by decide)]
  dsimp only [W1, hostOps0]; after_results; rfl
theorem W2_arg6 (c : Dev nD) : W2 m ρ c (Proc.devRef .tc main_arg6) = m ((c.tc : Thread nD τ).loc main_arg6) := by
  rw [W2_of_ne m ρ c main_arg6 (by decide)]
  dsimp only [W1, hostOps0]; after_results
theorem W2_arg7 (c : Dev nD) : W2 m ρ c (Proc.devRef .tc main_arg7) = m ((c.tc : Thread nD τ).loc main_arg7) := by
  rw [W2_of_ne m ρ c main_arg7 (by decide)]
  dsimp only [W1, hostOps0]; after_results
theorem W2_arg8 (c : Dev nD) : W2 m ρ c (Proc.devRef .tc main_arg8) = m ((c.tc : Thread nD τ).loc main_arg8) := by
  rw [W2_of_ne m ρ c main_arg8 (by decide)]
  dsimp only [W1, hostOps0]; after_results
theorem W2_arg9 (c : Dev nD) : W2 m ρ c (Proc.devRef .tc main_arg9) = m ((c.tc : Thread nD τ).loc main_arg9) := by
  rw [W2_of_ne m ρ c main_arg9 (by decide)]
  dsimp only [W1, hostOps0]; after_results

theorem V3_v16 (c : Dev nD) : V3 m ρ c main_v16 = (dat0 (V1 m ρ) c).arrAt 6 cfg0.N := by
  show W3 m ρ c (Proc.devRef .tc main_v16) = _
  dsimp only [W3, hostOps1]; after_results
  exact W2_arr m ρ c 6
theorem V3_v26_aux (c : Dev nD) : V3 m ρ c main_v26 = agg16 (W2 m ρ c (Proc.devRef .tc main_v16)) (m ((c.tc : Thread nD τ).loc main_arg1)) := by
  show W3 m ρ c (Proc.devRef .tc main_v26) = _
  dsimp only [W3, hostOps1]; after_results
  rw [W2_v1, W2_v3]
  rfl
theorem V3_v26 (c : Dev nD) : V3 m ρ c main_v26 = agg16 ((dat0 (V1 m ρ) c).arrAt 6 cfg0.N) (m ((c.tc : Thread nD τ).loc main_arg1)) :=
  (V3_v26_aux m ρ c).trans (congrArg (fun h => agg16 h (m ((c.tc : Thread nD τ).loc main_arg1))) (W2_arr m ρ c 6))
theorem V3_arg6 (c : Dev nD) : V3 m ρ c main_arg6 = m ((c.tc : Thread nD τ).loc main_arg6) := by
  show W3 m ρ c (Proc.devRef .tc main_arg6) = _
  dsimp only [W3, hostOps1]; after_results
  exact W2_arg6 m ρ c
theorem V3_arg8 (c : Dev nD) : V3 m ρ c main_arg8 = m ((c.tc : Thread nD τ).loc main_arg8) := by
  show W3 m ρ c (Proc.devRef .tc main_arg8) = _
  dsimp only [W3, hostOps1]; after_results
  exact W2_arg8 m ρ c
theorem V3_v27 (c : Dev nD) : V3 m ρ c main_v27 = shapeCast S1x16 (m ((c.tc : Thread nD τ).loc main_arg7)) shapeCasts_S16_S1x16 := by
  show W3 m ρ c (Proc.devRef .tc main_v27) = _
  dsimp only [W3, hostOps1]; after_results
  rw [W2_arg7]; rfl
theorem V3_v28 (c : Dev nD) : V3 m ρ c main_v28 = shapeCast S1x7 (m ((c.tc : Thread nD τ).loc main_arg9)) shapeCasts_S7_S1x7 := by
  show W3 m ρ c (Proc.devRef .tc main_v28) = _
  dsimp only [W3, hostOps1]; after_results
  rw [W2_arg9]; rfl

/-! ## The result array, as one function of the arguments -/

/-- A `[b]` array cast to `[1, b]` reads, at `(u, c)`, the operand at `c`, whatever the unit coordinate `u`. -/
theorem shapeCast_b_1b_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu, Nat.zero_mul, Nat.zero_add])

section AtIdeal

variable (m : (ℓ : Loc nD τ sig) → Buf (Elt Ideal) ℓ) (ρ : Dev nD → PrngReg)

/-- The hidden features of every node, from the arguments. -/
def hidden (c : Dev nD) : S100000x16.Idx → EReal :=
  Cert.Spec.hid (m ((c.tc : Thread nD τ).loc main_arg0)) (agg64 (m ((c.tc : Thread nD τ).loc main_arg0)) (m ((c.tc : Thread nD τ).loc main_arg1)))
    (fun k j => m ((c.tc : Thread nD τ).loc main_arg2) (ix2 k j)) (fun j => m ((c.tc : Thread nD τ).loc main_arg3) (ix1 j))
    (fun k j => m ((c.tc : Thread nD τ).loc main_arg4) (ix2 k j)) (fun j => m ((c.tc : Thread nD τ).loc main_arg5) (ix1 j))

/-- The class scores of every node, from the arguments: what the program returns. -/
def scores (c : Dev nD) : S100000x7.Idx → EReal :=
  Cert.Spec.outp (hidden m c) (agg16 (hidden m c) (m ((c.tc : Thread nD τ).loc main_arg1)))
    (fun k j => m ((c.tc : Thread nD τ).loc main_arg6) (ix2 k j)) (fun j => m ((c.tc : Thread nD τ).loc main_arg7) (ix1 j))
    (fun k j => m ((c.tc : Thread nD τ).loc main_arg8) (ix2 k j)) (fun j => m ((c.tc : Thread nD τ).loc main_arg9) (ix1 j))

/-- What the first call leaves in its output array is the hidden features. -/
theorem first_eq (c : Dev nD) : (dat0 (V1 m ρ) c).arrAt 6 cfg0.N = hidden m c := by
  rw [Cert.KernelIdeal.Regions.final0 (V1 m ρ) c]
  unfold Cert.KernelIdeal.Regions.G0 hidden
  rw [V1_arg0, V1_v13, V1_arg2, V1_v14, V1_arg4, V1_v15]
  simp only [shapeCast_b_1b_apply]

/-- The last boundary's contents of the result buffer are the class scores. -/
theorem result_eq (c : Dev nD) : W4 m ρ c (Proc.devRef .tc main_v29) = scores m c := by
  rw [show W4 m ρ c (Proc.devRef .tc main_v29) = (dat1 (V3 m ρ) c).arrAt 6 cfg1.N from W4_arr m ρ c 6,
    Cert.KernelIdeal.Regions.final1 (V3 m ρ) c]
  unfold Cert.KernelIdeal.Regions.G1 scores
  rw [V3_v16, V3_v26, V3_arg6, V3_v27, V3_arg8, V3_v28, first_eq]
  simp only [shapeCast_b_1b_apply]

end AtIdeal

end Cert.KernelIdeal.KValue

end
-- ==== Proof.RefSide.lean ====
/-
  The reference's stages read at one index: the hidden features and the class scores of node `p` are the two row
  functions of row `p` of the arrays they are computed from.
-/
import proofs.«164027_j34832184770974_1_alg».proof.Proof.RefRead
import proofs.«164027_j34832184770974_1_alg».proof.Proof.Spec
import proofs.«164027_j34832184770974_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefSide

open Idealize.ShloMosaic Idealize.ShloMosaic.ValueIdx Cert.ReferenceIdeal Cert.ReferenceIdeal.ReadP

/-! ## Where each stage reads its operands

  At the index (p, q) a rows-by-columns product reads row `p` of its left operand and column `q` of its right one;
  a bias broadcast over the rows reads the bias at the column; a row statistic broadcast over the columns reads it at
  the row. -/

private theorem lidx15_eq (p : Fin 100000) (j : Fin 16) (k : Fin 64) : lidx_main_v15 (ix2 p j) k = ix2 p k :=
  funext fun a => Fin.ext (by match a with | ⟨0, _⟩ => rfl | ⟨1, _⟩ => rfl)
private theorem ridx15_eq (p : Fin 100000) (j : Fin 16) (k : Fin 64) : ridx_main_v15 (ix2 p j) k = ix2 k j :=
  funext fun a => Fin.ext (by match a with | ⟨0, _⟩ => rfl | ⟨1, _⟩ => rfl)
private theorem lidx20_eq (p : Fin 100000) (j : Fin 16) (k : Fin 16) : lidx_main_v20 (ix2 p j) k = ix2 p k :=
  funext fun a => Fin.ext (by match a with | ⟨0, _⟩ => rfl | ⟨1, _⟩ => rfl)
private theorem ridx20_eq (p : Fin 100000) (j : Fin 16) (k : Fin 16) : ridx_main_v20 (ix2 p j) k = ix2 k j :=
  funext fun a => Fin.ext (by match a with | ⟨0, _⟩ => rfl | ⟨1, _⟩ => rfl)
private theorem lidx37_eq (p : Fin 100000) (j : Fin 16) (k : Fin 16) : lidx_main_v37 (ix2 p j) k = ix2 p k :=
  funext fun a => Fin.ext (by match a with | ⟨0, _⟩ => rfl | ⟨1, _⟩ => rfl)
private theorem ridx37_eq (p : Fin 100000) (j : Fin 16) (k : Fin 16) : ridx_main_v37 (ix2 p j) k = ix2 k j :=
  funext fun a => Fin.ext (by match a with | ⟨0, _⟩ => rfl | ⟨1, _⟩ => rfl)
private theorem lidx42_eq (p : Fin 100000) (r : Fin 7) (k : Fin 16) : lidx_main_v42 (ix2 p r) k = ix2 p k :=
  funext fun a => Fin.ext (by match a with | ⟨0, _⟩ => rfl | ⟨1, _⟩ => rfl)
private theorem ridx42_eq (p : Fin 100000) (r : Fin 7) (k : Fin 16) : ridx_main_v42 (ix2 p r) k = ix2 k r :=
  funext fun a => Fin.ext (by match a with | ⟨0, _⟩ => rfl | ⟨1, _⟩ => rfl)
private theorem bias17_eq (p : Fin 100000) (j : Fin 16) : idx_main_v16 (idx_main_v17 (ix2 p j)) = ix1 j :=
  funext fun a => Fin.ext (by match a with | ⟨0, _⟩ => rfl)
private theorem bias22_eq (p : Fin 100000) (j : Fin 16) : idx_main_v21 (idx_main_v22 (ix2 p j)) = ix1 j :=
  funext fun a => Fin.ext (by match a with | ⟨0, _⟩ => rfl)
private theorem bias39_eq (p : Fin 100000) (j : Fin 16) : idx_main_v38 (idx_main_v39 (ix2 p j)) = ix1 j :=
  funext fun a => Fin.ext (by match a with | ⟨0, _⟩ => rfl)
private theorem bias44_eq (p : Fin 100000) (r : Fin 7) : idx_main_v43 (idx_main_v44 (ix2 p r)) = ix1 r :=
  funext fun a => Fin.ext (by match a with | ⟨0, _⟩ => rfl)
private theorem row4_eq (p : Fin 100000) (r : Fin 7) : idx_main_call4_v3 (idx_main_call4_v4 (ix2 p r)) = ix1 p :=
  funext fun a => Fin.ext (by match a with | ⟨0, _⟩ => rfl)
private theorem row10_eq (p : Fin 100000) (r : Fin 7) : idx_main_call4_v8 (idx_main_call4_v10 (ix2 p r)) = ix1 p :=
  funext fun a => Fin.ext (by match a with | ⟨0, _⟩ => rfl)
private theorem row7_eq (p : Fin 100000) (k : Fin 7) : idx_main_call4_v7 (ix1 p) k = ix2 p k :=
  funext fun a => Fin.ext (by match a with | ⟨0, _⟩ => rfl | ⟨1, _⟩ => rfl)

section Stages

variable (x0 : (⟨S100000x64, .f32⟩ : BufTy).Contents (Elt Ideal)) (x1 : (⟨S2x1250000, .i32⟩ : BufTy).Contents (Elt Ideal)) (x2 : (⟨S64x16, .f32⟩ : BufTy).Contents (Elt Ideal))
  (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S16x16, .f32⟩ : BufTy).Contents (Elt Ideal))
  (x7 : (⟨S16, .f32⟩ : BufTy).Contents (Elt Ideal)) (x8 : (⟨S16x7, .f32⟩ : BufTy).Contents (Elt Ideal)) (x9 : (⟨S7, .f32⟩ : BufTy).Contents (Elt Ideal))

/-! ## The first node update -/

/-- The first affine layer at (p, j): the layer of row `p` of the features plus their aggregate. -/
private theorem v18_at (p : Fin 100000) (j : Fin 16) :
    val_main_v18 (F := Ideal) x0 x1 x2 x3 (ix2 p j) = Cert.Spec.lin (fun k => x0 (ix2 p k) + val_main_v13 (F := Ideal) x0 x1 (ix2 p k)) (fun k j => x2 (ix2 k j)) (fun j => x3 (ix1 j)) j := by
  rw [val_main_v18_apply, val_main_v15_apply, val_main_v17_apply, val_main_v16_apply, bias17_eq]
  simp only [lidx15_eq, ridx15_eq, val_main_v14_apply]
  rfl

/-- Its rectifier. -/
private theorem v19_at (p : Fin 100000) (j : Fin 16) :
    val_main_v19 (F := Ideal) x0 x1 x2 x3 (ix2 p j) = max (Cert.Spec.lin (fun k => x0 (ix2 p k) + val_main_v13 (F := Ideal) x0 x1 (ix2 p k)) (fun k j => x2 (ix2 k j)) (fun j => x3 (ix1 j)) j) Cert.Spec.zero32 := by
  rw [val_main_v19_apply, v18_at, val_main_call0_v0_apply, val_main_call0_cst_apply]
  rfl

/-- The second affine layer at (p, q). -/
private theorem v23_at (p : Fin 100000) (q : Fin 16) :
    val_main_v23 (F := Ideal) x0 x1 x2 x3 x4 x5 (ix2 p q)
      = Cert.Spec.lin (fun j => max (Cert.Spec.lin (fun k => x0 (ix2 p k) + val_main_v13 (F := Ideal) x0 x1 (ix2 p k)) (fun k j => x2 (ix2 k j)) (fun j => x3 (ix1 j)) j) Cert.Spec.zero32) (fun k j => x4 (ix2 k j)) (fun j => x5 (ix1 j)) q := by
  rw [val_main_v23_apply, val_main_v20_apply, val_main_v22_apply, val_main_v21_apply, bias22_eq]
  simp only [lidx20_eq, ridx20_eq, v19_at]
  rfl

/-! ## The second node update -/

/-- The third affine layer at (p, j): the layer of row `p` of the hidden features plus their aggregate. -/
private theorem v40_at (p : Fin 100000) (j : Fin 16) :
    val_main_v40 (F := Ideal) x0 x1 x2 x3 x4 x5 x6 x7 (ix2 p j) = Cert.Spec.lin (fun k => val_main_v25 (F := Ideal) x0 x1 x2 x3 x4 x5 (ix2 p k) + val_main_v35 (F := Ideal) x0 x1 x2 x3 x4 x5 (ix2 p k)) (fun k j => x6 (ix2 k j)) (fun j => x7 (ix1 j)) j := by
  rw [val_main_v40_apply, val_main_v37_apply, val_main_v39_apply, val_main_v38_apply, bias39_eq]
  simp only [lidx37_eq, ridx37_eq, val_main_v36_apply]
  rfl

/-- Its rectifier. -/
private theorem v41_at (p : Fin 100000) (j : Fin 16) :
    val_main_v41 (F := Ideal) x0 x1 x2 x3 x4 x5 x6 x7 (ix2 p j) = max (Cert.Spec.lin (fun k => val_main_v25 (F := Ideal) x0 x1 x2 x3 x4 x5 (ix2 p k) + val_main_v35 (F := Ideal) x0 x1 x2 x3 x4 x5 (ix2 p k)) (fun k j => x6 (ix2 k j)) (fun j => x7 (ix1 j)) j) Cert.Spec.zero32 := by
  rw [val_main_v41_apply, v40_at, val_main_call3_v0_apply, val_main_call3_cst_apply]
  rfl

/-- The logits at (p, r). -/
private theorem v45_at (p : Fin 100000) (r : Fin 7) :
    val_main_v45 (F := Ideal) x0 x1 x2 x3 x4 x5 x6 x7 x8 x9 (ix2 p r) = Cert.Spec.logits (fun k => val_main_v25 (F := Ideal) x0 x1 x2 x3 x4 x5 (ix2 p k)) (fun k => val_main_v35 (F := Ideal) x0 x1 x2 x3 x4 x5 (ix2 p k)) (fun k j => x6 (ix2 k j)) (fun j => x7 (ix1 j)) (fun k j => x8 (ix2 k j)) (fun j => x9 (ix1 j)) r := by
  rw [val_main_v45_apply, val_main_v42_apply, val_main_v44_apply, val_main_v43_apply, bias44_eq]
  simp only [lidx42_eq, ridx42_eq, v41_at]
  rfl

/-! ## The row-wise log-softmax of the logits -/

/-- Folding from minus infinity, the first step returns the other operand. -/
private theorem max_ninf (y : EReal) : max (Ideal.ofBits .f32 0xFF800000#32) y = y := by
  simp [Ideal.ofBits, Ideal.ieee]

private theorem red7 : S100000x7.Reduces [1] S100000 := by decide

/-- The row index `p` with the column `k` put back is (p, k). -/
private theorem lift7_eq (p : Fin 100000) (k : Fin (S100000x7.size 1)) :
    red7.lift (ix1 p) k = ix2 p (⟨k.val, k.isLt⟩ : Fin 7) := by
  funext c; apply Fin.ext
  match c with
  | ⟨0, _⟩ => rfl
  | ⟨1, _⟩ => rfl

/-- The reduce with a maximum body over the columns, at row `p`, is the fold of the maximum over row `p`. -/
private theorem rowmax_at (p : Fin 100000) :
    val_main_call4_v0 (F := Ideal) x0 x1 x2 x3 x4 x5 x6 x7 x8 x9 (ix1 p) = Cert.Spec.rowMax (fun r => val_main_v45 (F := Ideal) x0 x1 x2 x3 x4 x5 x6 x7 x8 x9 (ix2 p r)) := by
  unfold val_main_call4_v0
  rw [Host.reduce_eq_fold_single (FloatOps.maximumf (F := Ideal) (φ := .f32)) (val_main_v45 (F := Ideal) x0 x1 x2 x3 x4 x5 x6 x7 x8 x9) _
    Gen.reducesTo_S100000x7_S100000_d1 red7 Gen.h_S_ (ix1 p)]
  have hf : (val_main_v45 (F := Ideal) x0 x1 x2 x3 x4 x5 x6 x7 x8 x9) ∘ red7.lift (ix1 p) = fun r : Fin 7 => val_main_v45 (F := Ideal) x0 x1 x2 x3 x4 x5 x6 x7 x8 x9 (ix2 p r) :=
    funext fun k => congrArg (val_main_v45 (F := Ideal) x0 x1 x2 x3 x4 x5 x6 x7 x8 x9) (lift7_eq p k)
  exact congrArg (fun f => Finset.fold max Cert.Spec.ninf32 f (Finset.univ : Finset (Fin 7))) hf

/-- The row maximum broadcast over the columns. -/
private theorem v4_at (p : Fin 100000) (r : Fin 7) :
    val_main_call4_v4 (F := Ideal) x0 x1 x2 x3 x4 x5 x6 x7 x8 x9 (ix2 p r) = Cert.Spec.rowMax (fun r => val_main_v45 (F := Ideal) x0 x1 x2 x3 x4 x5 x6 x7 x8 x9 (ix2 p r)) := by
  rw [val_main_call4_v4_apply, val_main_call4_v3_apply, row4_eq, val_main_call4_v2_apply, val_main_call4_v1_apply,
    val_main_call4_cst_0_apply, rowmax_at]
  exact max_ninf _

/-- The shifted logits. -/
private theorem v5_at (p : Fin 100000) (r : Fin 7) :
    val_main_call4_v5 (F := Ideal) x0 x1 x2 x3 x4 x5 x6 x7 x8 x9 (ix2 p r) = val_main_v45 (F := Ideal) x0 x1 x2 x3 x4 x5 x6 x7 x8 x9 (ix2 p r) - Cert.Spec.rowMax (fun r => val_main_v45 (F := Ideal) x0 x1 x2 x3 x4 x5 x6 x7 x8 x9 (ix2 p r)) := by
  rw [val_main_call4_v5_apply, v4_at]
  rfl

/-- The sum of the exponentials of the shifted row. -/
private theorem v7_at (p : Fin 100000) :
    val_main_call4_v7 (F := Ideal) x0 x1 x2 x3 x4 x5 x6 x7 x8 x9 (ix1 p)
      = ∑ r : Fin 7, Ideal.exp (val_main_v45 (F := Ideal) x0 x1 x2 x3 x4 x5 x6 x7 x8 x9 (ix2 p r) - Cert.Spec.rowMax (fun r => val_main_v45 (F := Ideal) x0 x1 x2 x3 x4 x5 x6 x7 x8 x9 (ix2 p r))) := by
  rw [val_main_call4_v7_apply, val_main_call4_cst_1_apply]
  simp only [val_main_call4_v6_apply, row7_eq, v5_at, Ideal.hostUnary_exp_def, Ideal.ofBits_def]
  rw [Ideal.ofBits_zero_f32, zero_add]

/-- Its logarithm broadcast over the columns. -/
private theorem v10_at (p : Fin 100000) (r : Fin 7) :
    val_main_call4_v10 (F := Ideal) x0 x1 x2 x3 x4 x5 x6 x7 x8 x9 (ix2 p r)
      = Ideal.log (∑ r : Fin 7, Ideal.exp (val_main_v45 (F := Ideal) x0 x1 x2 x3 x4 x5 x6 x7 x8 x9 (ix2 p r) - Cert.Spec.rowMax (fun r => val_main_v45 (F := Ideal) x0 x1 x2 x3 x4 x5 x6 x7 x8 x9 (ix2 p r)))) := by
  rw [val_main_call4_v10_apply, val_main_call4_v9_apply, val_main_call4_v8_apply, row10_eq, v7_at]
  rfl

/-- The result at (p, q) is the log-softmax of row `p` of the logits at `q`. -/
private theorem v46_at (p : Fin 100000) (q : Fin 7) :
    val_main_v46 (F := Ideal) x0 x1 x2 x3 x4 x5 x6 x7 x8 x9 (ix2 p q) = Cert.Spec.lsm (fun r => val_main_v45 (F := Ideal) x0 x1 x2 x3 x4 x5 x6 x7 x8 x9 (ix2 p r)) q := by
  rw [val_main_v46_apply, v5_at, v10_at]
  rfl

end Stages

/-- The reference's hidden features (after the three rectifiers) at node `p`, coordinate `q`: the first node update of
    row `p` of the features and of their aggregate. -/
theorem ref_hid (x0 : (⟨S100000x64, .f32⟩ : BufTy).Contents (Elt Ideal)) (x1 : (⟨S2x1250000, .i32⟩ : BufTy).Contents (Elt Ideal)) (x2 : (⟨S64x16, .f32⟩ : BufTy).Contents (Elt Ideal))
    (x3 : (⟨S16, .f32⟩ : BufTy).Contents (Elt Ideal)) (x4 : (⟨S16x16, .f32⟩ : BufTy).Contents (Elt Ideal)) (x5 : (⟨S16, .f32⟩ : BufTy).Contents (Elt Ideal)) (p : Fin 100000) (q : Fin 16) :
    val_main_v25 (F := Ideal) x0 x1 x2 x3 x4 x5 (ix2 p q)
      = Cert.Spec.mlp1 (fun k => x0 (ix2 p k)) (fun k => val_main_v13 (F := Ideal) x0 x1 (ix2 p k)) (fun k j => x2 (ix2 k j))
          (fun j => x3 (ix1 j)) (fun k j => x4 (ix2 k j)) (fun j => x5 (ix1 j)) q := by
  rw [val_main_v25_apply, val_main_v24_apply, v23_at, val_main_call1_v0_apply, val_main_call1_cst_apply,
    val_main_call2_v0_apply, val_main_call2_cst_apply]
  rfl

/-- The reference's result at node `p`, class `q`: the second node update of row `p` of the hidden features and of
    their aggregate. -/
theorem ref_out (x0 : (⟨S100000x64, .f32⟩ : BufTy).Contents (Elt Ideal)) (x1 : (⟨S2x1250000, .i32⟩ : BufTy).Contents (Elt Ideal)) (x2 : (⟨S64x16, .f32⟩ : BufTy).Contents (Elt Ideal))
    (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S16x16, .f32⟩ : BufTy).Contents (Elt Ideal))
    (x7 : (⟨S16, .f32⟩ : BufTy).Contents (Elt Ideal)) (x8 : (⟨S16x7, .f32⟩ : BufTy).Contents (Elt Ideal)) (x9 : (⟨S7, .f32⟩ : BufTy).Contents (Elt Ideal)) (p : Fin 100000) (q : Fin 7) :
    val_main_v46 (F := Ideal) x0 x1 x2 x3 x4 x5 x6 x7 x8 x9 (ix2 p q)
      = Cert.Spec.mlp2 (fun k => val_main_v25 (F := Ideal) x0 x1 x2 x3 x4 x5 (ix2 p k))
          (fun k => val_main_v35 (F := Ideal) x0 x1 x2 x3 x4 x5 (ix2 p k)) (fun k j => x6 (ix2 k j))
          (fun j => x7 (ix1 j)) (fun k j => x8 (ix2 k j)) (fun j => x9 (ix1 j)) q := by
  rw [v46_at]
  unfold Cert.Spec.mlp2
  exact congrArg (fun z => Cert.Spec.lsm z q) (funext fun r => v45_at x0 x1 x2 x3 x4 x5 x6 x7 x8 x9 p r)

end Cert.ReferenceIdeal.RefSide

end
-- ==== Proof.Bridge.lean ====
/-
  The two programs meet: the reference's result, stage by stage, is the same function of the arguments as the
  kernel program's result.  The neighbour sums are the same host operations on both sides (the same gather and
  scatter-add over the same edge columns), so they are compared as whole functions and never opened; the node
  updates agree row by row, both being the row functions of the specification.
-/
import proofs.«164027_j34832184770974_1_alg».proof.Proof.KernelValue
import proofs.«164027_j34832184770974_1_alg».proof.Proof.RefSide

set_option maxRecDepth 16384

noncomputable section

namespace Cert.Bridge

open Idealize.ShloMosaic Idealize.ShloMosaic.TcCoe Idealize.ShloMosaic.ValueIdx Idealize.SL.Sem
open Cert.ReferenceIdeal.ReadP Cert.KernelIdeal.KValue

section AnyFloat
variable {F : FTy → Type} [FloatOps F]

/-- The reference's neighbour sum of the features is the kernel program's: the same operations of the same arguments. -/
theorem agg64_eq (x : (⟨Cert.ReferenceIdeal.S100000x64, .f32⟩ : BufTy).Contents (Elt F)) (ei : (⟨Cert.ReferenceIdeal.S2x1250000, .i32⟩ : BufTy).Contents (Elt F)) :
    val_main_v13 (F := F) x ei = agg64 x ei := rfl

/-- The reference's neighbour sum of the hidden features is the kernel program's, applied to the reference's hidden features. -/
theorem agg16_eq (x0 : (⟨Cert.ReferenceIdeal.S100000x64, .f32⟩ : BufTy).Contents (Elt F)) (x1 : (⟨Cert.ReferenceIdeal.S2x1250000, .i32⟩ : BufTy).Contents (Elt F)) (x2 : (⟨Cert.ReferenceIdeal.S64x16, .f32⟩ : BufTy).Contents (Elt F))
    (x3 : (⟨Cert.ReferenceIdeal.S16, .f32⟩ : BufTy).Contents (Elt F)) (x4 : (⟨Cert.ReferenceIdeal.S16x16, .f32⟩ : BufTy).Contents (Elt F)) (x5 : (⟨Cert.ReferenceIdeal.S16, .f32⟩ : BufTy).Contents (Elt F)) :
    val_main_v35 (F := F) x0 x1 x2 x3 x4 x5 = agg16 (val_main_v25 (F := F) x0 x1 x2 x3 x4 x5) x1 := rfl

end AnyFloat

variable (m : (ℓ : Loc Cert.KernelIdeal.nD Cert.KernelIdeal.τ Cert.KernelIdeal.sig) → Buf (Elt Ideal) ℓ)

/-- The reference's hidden features, of the kernel program's arguments, are the kernel program's hidden features. -/
theorem hidden_eq (c : Dev Cert.KernelIdeal.nD) :
    val_main_v25 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      = hidden m c := by
  funext i
  obtain ⟨p, q, rfl⟩ : ∃ (p : Fin 100000) (q : Fin 16), i = ix2 p q := ⟨i 0, i 1, eq_ix2 i⟩
  rw [Cert.ReferenceIdeal.RefSide.ref_hid, agg64_eq]
  rfl

/-- The reference's result, of the kernel program's arguments, is the kernel program's class scores. -/
theorem scores_eq (c : Dev Cert.KernelIdeal.nD) :
    val_main_v46 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      = scores m c := by
  funext i
  obtain ⟨p, q, rfl⟩ : ∃ (p : Fin 100000) (q : Fin 7), i = ix2 p q := ⟨i 0, i 1, eq_ix2 i⟩
  rw [Cert.ReferenceIdeal.RefSide.ref_out, agg16_eq, hidden_eq]
  rfl

end Cert.Bridge

end
-- ==== Proof.lean ====
/-
  The certificate: the GIN network's two Pallas calls against the plain jnp network, over the extended reals.

  Both programs compute, for every node, `log_softmax (relu ((h + A h) W3 + b3) W4 + b4)` with
  `h = relu (relu (relu ((x + A x) W1 + b1) W2 + b2))`, where `A` is the neighbour sum along the edge list (a gather of
  the source rows scatter-added into the destination rows).  The kernel program evaluates the two node updates in
  blocks of 10000 rows inside its two calls and the neighbour sums on the host between them; the reference evaluates
  everything on whole arrays.  A node update is a function of one row, so blocking changes nothing, and at the ideal
  values the kernels' narrowing to bf16 is the identity, a matrix product into a zero accumulator is the plain sum of
  products, and the two spellings of a row maximum and of a row sum are the same fold and the same sum.

  The three frames are the generated ones (the reference's is its run with the result dropped); the idealization
  rewrote nothing, so `preserves` is `True`; the algebraic claim chooses the kernel program's class scores as the
  common result and reads both runs at it.
-/
import proofs.«164027_j34832184770974_1_alg».proof.Defs
import proofs.«164027_j34832184770974_1_alg».proof.Proof.Gen.Kernel
import proofs.«164027_j34832184770974_1_alg».proof.Proof.Gen.Kernel.Frame
import proofs.«164027_j34832184770974_1_alg».proof.Proof.Gen.KernelIdeal
import proofs.«164027_j34832184770974_1_alg».proof.Proof.Gen.KernelIdeal.Frame
import proofs.«164027_j34832184770974_1_alg».proof.Proof.Gen.ReferenceIdeal
import proofs.«164027_j34832184770974_1_alg».proof.Proof.Gen.Pre_finite_inputs
import proofs.«164027_j34832184770974_1_alg».proof.Proof.KernelRun
import proofs.«164027_j34832184770974_1_alg».proof.Proof.KernelValue
import proofs.«164027_j34832184770974_1_alg».proof.Proof.RefRun
import proofs.«164027_j34832184770974_1_alg».proof.Proof.RefRead
import proofs.«164027_j34832184770974_1_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both runs end at the kernel program's class scores of the (shared) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KValue.scores m c, ?_, ?_⟩
  · exact (θ_run Cert.KernelIdeal.defs _ _).mono
      (fun r h c => ⟨(h c).1.trans (Cert.KernelIdeal.KValue.result_eq m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8, a9⟩ := hagree c
    rw [Cert.ReferenceIdeal.ReadP.val_main_v46_eq, a0, a1, a2, a3, a4, a5, a6, a7, a8, a9]
    exact Cert.Bridge.scores_eq m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
